-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S8x4096x1024 : Shape := ⟨3, ![8, 4096, 1024]⟩
abbrev S8x1024x4096 : Shape := ⟨3, ![8, 1024, 4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024x4096 : S_.BroadcastsInDim S8x1024x4096 (![] : Fin 0 → Fin S8x1024x4096.rank)
  reducesTo_S8x1024x4096_S_d0_1_2 : S8x1024x4096.ReducesTo [0, 1, 2] S_

variable [Facts]

def fn {F : FTy → Type} [FloatOps F] (main_arg0 : FVec F S16384x1024 .f32) (main_arg1 : FVec F S8x4096x1024 .f32) (main_arg2 : FVec F S8x1024x4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x1024x4096 .f32 := Host.absf main_arg2
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  main_v13
-- ==== Kernel.lean ====
abbrev S16384x1024 : Shape := ⟨2, ![16384, 1024]⟩
abbrev S8x4096x1024 : Shape := ⟨3, ![8, 4096, 1024]⟩
abbrev S8x1024x4096 : Shape := ⟨3, ![8, 1024, 4096]⟩
abbrev S128 : Shape := ⟨1, ![128]⟩
abbrev S128x1024 : Shape := ⟨2, ![128, 1024]⟩
abbrev S1 : Shape := ⟨1, ![1]⟩
abbrev S1x4096x1024 : Shape := ⟨3, ![1, 4096, 1024]⟩
abbrev S1x1024x4096 : Shape := ⟨3, ![1, 1024, 4096]⟩
abbrev S4096x1024 : Shape := ⟨2, ![4096, 1024]⟩
abbrev S128x4096 : Shape := ⟨2, ![128, 4096]⟩
abbrev S1024x4096 : Shape := ⟨2, ![1024, 4096]⟩

abbrev nBuf : Space → Nat
  | .hbm => 7
  | .vmem => 8
  | .smem => 2
  | _ => 0

abbrev bufTy : (tb : Table) → Fin (tcTables nBuf tb) → BufTy
  | .hbm, ⟨0, _⟩ => ⟨S16384x1024, .f32⟩
  | .hbm, ⟨1, _⟩ => ⟨S8x4096x1024, .f32⟩
  | .hbm, ⟨2, _⟩ => ⟨S8x1024x4096, .f32⟩
  | .hbm, ⟨3, _⟩ => ⟨S16384x1024, .bf16⟩
  | .hbm, ⟨4, _⟩ => ⟨S8x4096x1024, .bf16⟩
  | .hbm, ⟨5, _⟩ => ⟨S8x1024x4096, .bf16⟩
  | .hbm, ⟨6, _⟩ => ⟨S16384x1024, .f32⟩
  | .local _ .vmem, ⟨0, _⟩ => ⟨S128x1024, .bf16⟩
  | .local _ .vmem, ⟨1, _⟩ => ⟨S128x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x4096, .bf16⟩
  | .local _ .vmem, ⟨5, _⟩ => ⟨S1x1024x4096, .bf16⟩
  | .local _ .vmem, ⟨6, _⟩ => ⟨S128x1024, .f32⟩
  | .local _ .vmem, ⟨7, _⟩ => ⟨S128x1024, .f32⟩
  | .local _ .smem, ⟨0, _⟩ => ⟨S128, .i32⟩
  | .local _ .smem, ⟨1, _⟩ => ⟨S128, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S128) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S128) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  numel1_S1 : S1.numel = 1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  dot_S128x1024_S4096x1024_S128x4096_1_1_0_0_n_n_wf : DotDims.WF S128x1024 S4096x1024 S128x4096 [1] [1] [0] [0] [] []
  dot_S128x4096_S1024x4096_S128x1024_1_1_0_0_n_n_wf : DotDims.WF S128x4096 S1024x4096 S128x1024 [1] [1] [0] [0] [] []
  hrank0 : 0 < grid0.rank
  k0_off1_inb : ∀ i : grid0.Coords, ∀ a, (k0_off1 i) a + S1.size a ≤ S128.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf
def dot_S128x4096_S1024x4096_S128x1024_1_1_0_0_n_n : DotDims S128x4096 S1024x4096 S128x1024 where
  lhsContracting := [1]
  rhsContracting := [1]
  lhsNonContracting := [0]
  rhsNonContracting := [0]
  lhsBatch := []
  rhsBatch := []
  wf := dot_S128x4096_S1024x4096_S128x1024_1_1_0_0_n_n_wf

abbrev spec0_0 : Pipeline.WinSpec sig grid0.rank :=
  Pipeline.WinSpec.ofSpec (Memref.whole main_v0) S128x1024.size reads0_0 false false 2 stage0_0 sem0_0 nbuf0_0 hstage0_0

abbrev spec0_1 : Pipeline.WinSpec sig grid0.rank :=
  Pipeline.WinSpec.ofSpec (Memref.whole main_v1) S1x4096x1024.size reads0_1 false false 2 stage0_1 sem0_1 nbuf0_1 hstage0_1

abbrev spec0_2 : Pipeline.WinSpec sig grid0.rank :=
  Pipeline.WinSpec.ofSpec (Memref.whole main_v2) S1x1024x4096.size reads0_2 false false 2 stage0_2 sem0_2 nbuf0_2 hstage0_2

abbrev spec0_3 : Pipeline.WinSpec sig grid0.rank :=
  Pipeline.WinSpec.ofSpec (Memref.whole main_v3) S128x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S128x1024.size a ≤ S16384x1024.size a), EltTy.bits .bf16 = 32 ∨ (Rect.block (s := S16384x1024) S128x1024.size (cc0_transform_0 k0_off1_inb numel1_S1 pf i) h).WholeWords (EltTy.packing .bf16)) ∧
  (∀ i : grid0.Coords, ∃ h : (∀ a, (cc0_transform_1 k0_off1_inb numel1_S1 pf i a + 1) * S1x4096x1024.size a ≤ S8x4096x1024.size a), EltTy.bits .bf16 = 32 ∨ (Rect.block (s := S8x4096x1024) S1x4096x1024.size (cc0_transform_1 k0_off1_inb numel1_S1 pf i) h).WholeWords (EltTy.packing .bf16)) ∧
  (∀ i : grid0.Coords, ∃ h : (∀ a, (cc0_transform_2 k0_off1_inb numel1_S1 pf i a + 1) * S1x1024x4096.size a ≤ S8x1024x4096.size a), EltTy.bits .bf16 = 32 ∨ (Rect.block (s := S8x1024x4096) S1x1024x4096.size (cc0_transform_2 k0_off1_inb numel1_S1 pf i) h).WholeWords (EltTy.packing .bf16)) ∧
  (∀ i : grid0.Coords, ∃ h : (∀ a, (cc0_transform_3 k0_off1_inb numel1_S1 pf i a + 1) * S128x1024.size a ≤ S16384x1024.size a), EltTy.bits .f32 = 32 ∨ (Rect.block (s := S16384x1024) S128x1024.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16384x1024 : Shape := ⟨2, ![16384, 1024]⟩
abbrev S8x4096x1024 : Shape := ⟨3, ![8, 4096, 1024]⟩
abbrev S8x1024x4096 : Shape := ⟨3, ![8, 1024, 4096]⟩
abbrev S3072x1024 : Shape := ⟨2, ![3072, 1024]⟩
abbrev S1x4096x1024 : Shape := ⟨3, ![1, 4096, 1024]⟩
abbrev S4096x1024 : Shape := ⟨2, ![4096, 1024]⟩
abbrev S3072x4096 : Shape := ⟨2, ![3072, 4096]⟩
abbrev S_ : Shape := ⟨0, ![]⟩
abbrev S1x1024x4096 : Shape := ⟨3, ![1, 1024, 4096]⟩
abbrev S1024x4096 : Shape := ⟨2, ![1024, 4096]⟩
abbrev S1024x1024 : Shape := ⟨2, ![1024, 1024]⟩
abbrev S2560x1024 : Shape := ⟨2, ![2560, 1024]⟩
abbrev S2560x4096 : Shape := ⟨2, ![2560, 4096]⟩
abbrev S1536x1024 : Shape := ⟨2, ![1536, 1024]⟩
abbrev S1536x4096 : Shape := ⟨2, ![1536, 4096]⟩
abbrev S2048x1024 : Shape := ⟨2, ![2048, 1024]⟩
abbrev S2048x4096 : Shape := ⟨2, ![2048, 4096]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x4096x1024, .f32⟩
  | .hbm, ⟨2, _⟩ => ⟨S8x1024x4096, .f32⟩
  | .hbm, ⟨3, _⟩ => ⟨S3072x1024, .f32⟩
  | .hbm, ⟨4, _⟩ => ⟨S1x4096x1024, .f32⟩
  | .hbm, ⟨5, _⟩ => ⟨S4096x1024, .f32⟩
  | .hbm, ⟨6, _⟩ => ⟨S3072x4096, .f32⟩
  | .hbm, ⟨7, _⟩ => ⟨S_, .f32⟩
  | .hbm, ⟨8, _⟩ => ⟨S3072x4096, .f32⟩
  | .hbm, ⟨9, _⟩ => ⟨S3072x4096, .f32⟩
  | .hbm, ⟨10, _⟩ => ⟨S1x1024x4096, .f32⟩
  | .hbm, ⟨11, _⟩ => ⟨S1024x4096, .f32⟩
  | .hbm, ⟨12, _⟩ => ⟨S3072x1024, .f32⟩
  | .hbm, ⟨13, _⟩ => ⟨S1024x1024, .f32⟩
  | .hbm, ⟨14, _⟩ => ⟨S1x4096x1024, .f32⟩
  | .hbm, ⟨15, _⟩ => ⟨S4096x1024, .f32⟩
  | .hbm, ⟨16, _⟩ => ⟨S1024x4096, .f32⟩
  | .hbm, ⟨17, _⟩ => ⟨S_, .f32⟩
  | .hbm, ⟨18, _⟩ => ⟨S1024x4096, .f32⟩
  | .hbm, ⟨19, _⟩ => ⟨S1024x4096, .f32⟩
  | .hbm, ⟨20, _⟩ => ⟨S1x1024x4096, .f32⟩
  | .hbm, ⟨21, _⟩ => ⟨S1024x4096, .f32⟩
  | .hbm, ⟨22, _⟩ => ⟨S1024x1024, .f32⟩
  | .hbm, ⟨23, _⟩ => ⟨S2560x1024, .f32⟩
  | .hbm, ⟨24, _⟩ => ⟨S1x4096x1024, .f32⟩
  | .hbm, ⟨25, _⟩ => ⟨S4096x1024, .f32⟩
  | .hbm, ⟨26, _⟩ => ⟨S2560x4096, .f32⟩
  | .hbm, ⟨27, _⟩ => ⟨S_, .f32⟩
  | .hbm, ⟨28, _⟩ => ⟨S2560x4096, .f32⟩
  | .hbm, ⟨29, _⟩ => ⟨S2560x4096, .f32⟩
  | .hbm, ⟨30, _⟩ => ⟨S1x1024x4096, .f32⟩
  | .hbm, ⟨31, _⟩ => ⟨S1024x4096, .f32⟩
  | .hbm, ⟨32, _⟩ => ⟨S2560x1024, .f32⟩
  | .hbm, ⟨33, _⟩ => ⟨S1536x1024, .f32⟩
  | .hbm, ⟨34, _⟩ => ⟨S1x4096x1024, .f32⟩
  | .hbm, ⟨35, _⟩ => ⟨S4096x1024, .f32⟩
  | .hbm, ⟨36, _⟩ => ⟨S1536x4096, .f32⟩
  | .hbm, ⟨37, _⟩ => ⟨S_, .f32⟩
  | .hbm, ⟨38, _⟩ => ⟨S1536x4096, .f32⟩
  | .hbm, ⟨39, _⟩ => ⟨S1536x4096, .f32⟩
  | .hbm, ⟨40, _⟩ => ⟨S1x1024x4096, .f32⟩
  | .hbm, ⟨41, _⟩ => ⟨S1024x4096, .f32⟩
  | .hbm, ⟨42, _⟩ => ⟨S1536x1024, .f32⟩
  | .hbm, ⟨43, _⟩ => ⟨S2048x1024, .f32⟩
  | .hbm, ⟨44, _⟩ => ⟨S1x4096x1024, .f32⟩
  | .hbm, ⟨45, _⟩ => ⟨S4096x1024, .f32⟩
  | .hbm, ⟨46, _⟩ => ⟨S2048x4096, .f32⟩
  | .hbm, ⟨47, _⟩ => ⟨S_, .f32⟩
  | .hbm, ⟨48, _⟩ => ⟨S2048x4096, .f32⟩
  | .hbm, ⟨49, _⟩ => ⟨S2048x4096, .f32⟩
  | .hbm, ⟨50, _⟩ => ⟨S1x1024x4096, .f32⟩
  | .hbm, ⟨51, _⟩ => ⟨S1024x4096, .f32⟩
  | .hbm, ⟨52, _⟩ => ⟨S2048x1024, .f32⟩
  | .hbm, ⟨53, _⟩ => ⟨S2048x1024, .f32⟩
  | .hbm, ⟨54, _⟩ => ⟨S1x4096x1024, .f32⟩
  | .hbm, ⟨55, _⟩ => ⟨S4096x1024, .f32⟩
  | .hbm, ⟨56, _⟩ => ⟨S2048x4096, .f32⟩
  | .hbm, ⟨57, _⟩ => ⟨S_, .f32⟩
  | .hbm, ⟨58, _⟩ => ⟨S2048x4096, .f32⟩
  | .hbm, ⟨59, _⟩ => ⟨S2048x4096, .f32⟩
  | .hbm, ⟨60, _⟩ => ⟨S1x1024x4096, .f32⟩
  | .hbm, ⟨61, _⟩ => ⟨S1024x4096, .f32⟩
  | .hbm, ⟨62, _⟩ => ⟨S2048x1024, .f32⟩
  | .hbm, ⟨63, _⟩ => ⟨S2560x1024, .f32⟩
  | .hbm, ⟨64, _⟩ => ⟨S1x4096x1024, .f32⟩
  | .hbm, ⟨65, _⟩ => ⟨S4096x1024, .f32⟩
  | .hbm, ⟨66, _⟩ => ⟨S2560x4096, .f32⟩
  | .hbm, ⟨67, _⟩ => ⟨S_, .f32⟩
  | .hbm, ⟨68, _⟩ => ⟨S2560x4096, .f32⟩
  | .hbm, ⟨69, _⟩ => ⟨S2560x4096, .f32⟩
  | .hbm, ⟨70, _⟩ => ⟨S1x1024x4096, .f32⟩
  | .hbm, ⟨71, _⟩ => ⟨S1024x4096, .f32⟩
  | .hbm, ⟨72, _⟩ => ⟨S2560x1024, .f32⟩
  | .hbm, ⟨73, _⟩ => ⟨S1536x1024, .f32⟩
  | .hbm, ⟨74, _⟩ => ⟨S1x4096x1024, .f32⟩
  | .hbm, ⟨75, _⟩ => ⟨S4096x1024, .f32⟩
  | .hbm, ⟨76, _⟩ => ⟨S1536x4096, .f32⟩
  | .hbm, ⟨77, _⟩ => ⟨S_, .f32⟩
  | .hbm, ⟨78, _⟩ => ⟨S1536x4096, .f32⟩
  | .hbm, ⟨79, _⟩ => ⟨S1536x4096, .f32⟩
  | .hbm, ⟨80, _⟩ => ⟨S1x1024x4096, .f32⟩
  | .hbm, ⟨81, _⟩ => ⟨S1024x4096, .f32⟩
  | .hbm, ⟨82, _⟩ => ⟨S1536x1024, .f32⟩
  | .hbm, ⟨83, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call1_cst : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call2_cst : Ref sig .tc := ⟨.hbm, 27, rfl⟩
abbrev main_call2_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call3_cst : Ref sig .tc := ⟨.hbm, 37, rfl⟩
abbrev main_call3_v0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call4_cst : Ref sig .tc := ⟨.hbm, 47, rfl⟩
abbrev main_call4_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call5_cst : Ref sig .tc := ⟨.hbm, 57, rfl⟩
abbrev main_call5_v0 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_call6_cst : Ref sig .tc := ⟨.hbm, 67, rfl⟩
abbrev main_call6_v0 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_call7_cst : Ref sig .tc := ⟨.hbm, 77, rfl⟩
abbrev main_call7_v0 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]

class Facts₀ : Prop where
  slices_S16384x1024_S3072x1024_0_0 : S16384x1024.Slices ![0, 0] S3072x1024
  slices_S8x4096x1024_S1x4096x1024_0_0_0 : S8x4096x1024.Slices ![0, 0, 0] S1x4096x1024
  shapeCasts_S1x4096x1024_S4096x1024 : S1x4096x1024.ShapeCasts S4096x1024
  bcast_S_S3072x4096 : S_.BroadcastsInDim S3072x4096 (![] : Fin 0 → Fin S3072x4096.rank)
  slices_S8x1024x4096_S1x1024x4096_0_0_0 : S8x1024x4096.Slices ![0, 0, 0] S1x1024x4096
  shapeCasts_S1x1024x4096_S1024x4096 : S1x1024x4096.ShapeCasts S1024x4096
  slices_S16384x1024_S1024x1024_3072_0 : S16384x1024.Slices ![3072, 0] S1024x1024
  slices_S8x4096x1024_S1x4096x1024_1_0_0 : S8x4096x1024.Slices ![1, 0, 0] S1x4096x1024
  bcast_S_S1024x4096 : S_.BroadcastsInDim S1024x4096 (![] : Fin 0 → Fin S1024x4096.rank)
  slices_S8x1024x4096_S1x1024x4096_1_0_0 : S8x1024x4096.Slices ![1, 0, 0] S1x1024x4096
  slices_S16384x1024_S2560x1024_4096_0 : S16384x1024.Slices ![4096, 0] S2560x1024
  slices_S8x4096x1024_S1x4096x1024_2_0_0 : S8x4096x1024.Slices ![2, 0, 0] S1x4096x1024
  bcast_S_S2560x4096 : S_.BroadcastsInDim S2560x4096 (![] : Fin 0 → Fin S2560x4096.rank)
  slices_S8x1024x4096_S1x1024x4096_2_0_0 : S8x1024x4096.Slices ![2, 0, 0] S1x1024x4096
  slices_S16384x1024_S1536x1024_6656_0 : S16384x1024.Slices ![6656, 0] S1536x1024
  slices_S8x4096x1024_S1x4096x1024_3_0_0 : S8x4096x1024.Slices ![3, 0, 0] S1x4096x1024
  bcast_S_S1536x4096 : S_.BroadcastsInDim S1536x4096 (![] : Fin 0 → Fin S1536x4096.rank)
  slices_S8x1024x4096_S1x1024x4096_3_0_0 : S8x1024x4096.Slices ![3, 0, 0] S1x1024x4096
  slices_S16384x1024_S2048x1024_8192_0 : S16384x1024.Slices ![8192, 0] S2048x1024
  slices_S8x4096x1024_S1x4096x1024_4_0_0 : S8x4096x1024.Slices ![4, 0, 0] S1x4096x1024
  bcast_S_S2048x4096 : S_.BroadcastsInDim S2048x4096 (![] : Fin 0 → Fin S2048x4096.rank)
  slices_S8x1024x4096_S1x1024x4096_4_0_0 : S8x1024x4096.Slices ![4, 0, 0] S1x1024x4096
  slices_S16384x1024_S2048x1024_10240_0 : S16384x1024.Slices ![10240, 0] S2048x1024
  slices_S8x4096x1024_S1x4096x1024_5_0_0 : S8x4096x1024.Slices ![5, 0, 0] S1x4096x1024
  slices_S8x1024x4096_S1x1024x4096_5_0_0 : S8x1024x4096.Slices ![5, 0, 0] S1x1024x4096
  slices_S16384x1024_S2560x1024_12288_0 : S16384x1024.Slices ![12288, 0] S2560x1024
  slices_S8x4096x1024_S1x4096x1024_6_0_0 : S8x4096x1024.Slices ![6, 0, 0] S1x4096x1024
  slices_S8x1024x4096_S1x1024x4096_6_0_0 : S8x1024x4096.Slices ![6, 0, 0] S1x1024x4096
  slices_S16384x1024_S1536x1024_14848_0 : S16384x1024.Slices ![14848, 0] S1536x1024
  slices_S8x4096x1024_S1x4096x1024_7_0_0 : S8x4096x1024.Slices ![7, 0, 0] S1x4096x1024
  slices_S8x1024x4096_S1x1024x4096_7_0_0 : S8x1024x4096.Slices ![7, 0, 0] S1x1024x4096
  concatenates_S3072x1024_S1024x1024_S2560x1024_S1536x1024_S2048x1024_S2048x1024_S2560x1024_S1536x1024_S16384x1024_d0 : Shape.Concatenates [S3072x1024, S1024x1024, S2560x1024, S1536x1024, S2048x1024, S2048x1024, S2560x1024, S1536x1024] S16384x1024 0
  dot_S3072x1024_S4096x1024_S3072x4096_1_1_0_0_n_n_wf : DotDims.WF S3072x1024 S4096x1024 S3072x4096 [1] [1] [0] [0] [] []
  dot_S3072x4096_S1024x4096_S3072x1024_1_1_0_0_n_n_wf : DotDims.WF S3072x4096 S1024x4096 S3072x1024 [1] [1] [0] [0] [] []
  dot_S1024x1024_S4096x1024_S1024x4096_1_1_0_0_n_n_wf : DotDims.WF S1024x1024 S4096x1024 S1024x4096 [1] [1] [0] [0] [] []
  dot_S1024x4096_S1024x4096_S1024x1024_1_1_0_0_n_n_wf : DotDims.WF S1024x4096 S1024x4096 S1024x1024 [1] [1] [0] [0] [] []
  dot_S2560x1024_S4096x1024_S2560x4096_1_1_0_0_n_n_wf : DotDims.WF S2560x1024 S4096x1024 S2560x4096 [1] [1] [0] [0] [] []
  dot_S2560x4096_S1024x4096_S2560x1024_1_1_0_0_n_n_wf : DotDims.WF S2560x4096 S1024x4096 S2560x1024 [1] [1] [0] [0] [] []
  dot_S1536x1024_S4096x1024_S1536x4096_1_1_0_0_n_n_wf : DotDims.WF S1536x1024 S4096x1024 S1536x4096 [1] [1] [0] [0] [] []
  dot_S1536x4096_S1024x4096_S1536x1024_1_1_0_0_n_n_wf : DotDims.WF S1536x4096 S1024x4096 S1536x1024 [1] [1] [0] [0] [] []
  dot_S2048x1024_S4096x1024_S2048x4096_1_1_0_0_n_n_wf : DotDims.WF S2048x1024 S4096x1024 S2048x4096 [1] [1] [0] [0] [] []
  dot_S2048x4096_S1024x4096_S2048x1024_1_1_0_0_n_n_wf : DotDims.WF S2048x4096 S1024x4096 S2048x1024 [1] [1] [0] [0] [] []

variable [Facts₀]

def dot_S3072x1024_S4096x1024_S3072x4096_1_1_0_0_n_n : DotDims S3072x1024 S4096x1024 S3072x4096 where
  lhsContracting := [1]
  rhsContracting := [1]
  lhsNonContracting := [0]
  rhsNonContracting := [0]
  lhsBatch := []
  rhsBatch := []
  wf := dot_S3072x1024_S4096x1024_S3072x4096_1_1_0_0_n_n_wf
def dot_S3072x4096_S1024x4096_S3072x1024_1_1_0_0_n_n : DotDims S3072x4096 S1024x4096 S3072x1024 where
  lhsContracting := [1]
  rhsContracting := [1]
  lhsNonContracting := [0]
  rhsNonContracting := [0]
  lhsBatch := []
  rhsBatch := []
  wf := dot_S3072x4096_S1024x4096_S3072x1024_1_1_0_0_n_n_wf
def dot_S1024x1024_S4096x1024_S1024x4096_1_1_0_0_n_n : DotDims S1024x1024 S4096x1024 S1024x4096 where
  lhsContracting := [1]
  rhsContracting := [1]
  lhsNonContracting := [0]
  rhsNonContracting := [0]
  lhsBatch := []
  rhsBatch := []
  wf := dot_S1024x1024_S4096x1024_S1024x4096_1_1_0_0_n_n_wf
def dot_S1024x4096_S1024x4096_S1024x1024_1_1_0_0_n_n : DotDims S1024x4096 S1024x4096 S1024x1024 where
  lhsContracting := [1]
  rhsContracting := [1]
  lhsNonContracting := [0]
  rhsNonContracting := [0]
  lhsBatch := []
  rhsBatch := []
  wf := dot_S1024x4096_S1024x4096_S1024x1024_1_1_0_0_n_n_wf
def dot_S2560x1024_S4096x1024_S2560x4096_1_1_0_0_n_n : DotDims S2560x1024 S4096x1024 S2560x4096 where
  lhsContracting := [1]
  rhsContracting := [1]
  lhsNonContracting := [0]
  rhsNonContracting := [0]
  lhsBatch := []
  rhsBatch := []
  wf := dot_S2560x1024_S4096x1024_S2560x4096_1_1_0_0_n_n_wf
def dot_S2560x4096_S1024x4096_S2560x1024_1_1_0_0_n_n : DotDims S2560x4096 S1024x4096 S2560x1024 where
  lhsContracting := [1]
  rhsContracting := [1]
  lhsNonContracting := [0]
  rhsNonContracting := [0]
  lhsBatch := []
  rhsBatch := []
  wf := dot_S2560x4096_S1024x4096_S2560x1024_1_1_0_0_n_n_wf
def dot_S1536x1024_S4096x1024_S1536x4096_1_1_0_0_n_n : DotDims S1536x1024 S4096x1024 S1536x4096 where
  lhsContracting := [1]
  rhsContracting := [1]
  lhsNonContracting := [0]
  rhsNonContracting := [0]
  lhsBatch := []
  rhsBatch := []
  wf := dot_S1536x1024_S4096x1024_S1536x4096_1_1_0_0_n_n_wf
def dot_S1536x4096_S1024x4096_S1536x1024_1_1_0_0_n_n : DotDims S1536x4096 S1024x4096 S1536x1024 where
  lhsContracting := [1]
  rhsContracting := [1]
  lhsNonContracting := [0]
  rhsNonContracting := [0]
  lhsBatch := []
  rhsBatch := []
  wf := dot_S1536x4096_S1024x4096_S1536x1024_1_1_0_0_n_n_wf
def dot_S2048x1024_S4096x1024_S2048x4096_1_1_0_0_n_n : DotDims S2048x1024 S4096x1024 S2048x4096 where
  lhsContracting := [1]
  rhsContracting := [1]
  lhsNonContracting := [0]
  rhsNonContracting := [0]
  lhsBatch := []
  rhsBatch := []
  wf := dot_S2048x1024_S4096x1024_S2048x4096_1_1_0_0_n_n_wf
def dot_S2048x4096_S1024x4096_S2048x1024_1_1_0_0_n_n : DotDims S2048x4096 S1024x4096 S2048x1024 where
  lhsContracting := [1]
  rhsContracting := [1]
  lhsNonContracting := [0]
  rhsNonContracting := [0]
  lhsBatch := []
  rhsBatch := []
  wf := dot_S2048x4096_S1024x4096_S2048x1024_1_1_0_0_n_n_wf

class Facts : Prop extends Facts₀ where

variable [Facts]
-- ==== Proof.Spec.lean ====
/-
  Grouped expert feed-forward over 16384 rows in row tiles of 128: the value both programs compute.

  Rows are grouped by expert: expert 0 owns rows [0, 3072), expert 1 rows [3072, 4096), expert 2 rows [4096, 6656),
  expert 3 rows [6656, 8192), expert 4 rows [8192, 10240), expert 5 rows [10240, 12288), expert 6 rows [12288, 14848),
  expert 7 rows [14848, 16384). Every group is a whole number of 128-row tiles, so a tile has one expert (`tileExpert`).
  With e the expert of row r, entry (r, d) of the result is

      sum over f < 4096 of  max (sum over k < 1024 of x[r, k] * wi[e, f, k], 0) * wo[e, d, f].
-/
import Idealize.ShloMosaic.PureOps.Ideal.Laws
import Idealize.ShloMosaic.Lib.ValueIdx

noncomputable section

namespace Cert.Moe

open Idealize.ShloMosaic Idealize.ShloMosaic.ValueIdx

/-- The expert that owns row tile `t`: the tile boundaries 24, 32, 52, 64, 80, 96, 116 are the row boundaries over 128. -/
def tileExpert (t : Nat) : Nat :=
  if t < 24 then 0 else if t < 32 then 1 else if t < 52 then 2 else if t < 64 then 3
  else if t < 80 then 4 else if t < 96 then 5 else if t < 116 then 6 else 7

theorem tileExpert_lt (t : Nat) : tileExpert t < 8 := by
  unfold tileExpert; split_ifs <;> omega

/-- The expert of a row is the expert of its tile. -/
def rowExpert (r : Fin 16384) : Fin 8 := ⟨tileExpert (r.val / 128), tileExpert_lt _⟩

/-- Every row of tile `t` has tile `t`'s expert. -/
theorem rowExpert_tile (t : Fin 128) (y : Fin 128) (r : Fin 16384) (hr : r.val = t.val * 128 + y.val) :
    (rowExpert r).val = tileExpert t.val := by
  have : r.val / 128 = t.val := by have := y.isLt; omega
  simp only [rowExpert, this]

/-- On an expert's row range the expert is constant: rows [lo, hi) with lo, hi multiples of 128 inside one group. -/
theorem rowExpert_range (r : Fin 16384) (e lo hi : Nat) (h0 : lo ≤ r.val) (h1 : r.val < hi)
    (he : ∀ t, lo ≤ t * 128 → t * 128 < hi → tileExpert t = e) (hlo : 128 ∣ lo) (hhi : 128 ∣ hi) : (rowExpert r).val = e := by
  obtain ⟨a, rfl⟩ := hlo
  obtain ⟨b, rfl⟩ := hhi
  simp only [rowExpert]
  exact he _ (by omega) (by omega)

/-- The same, naming the expert as an element of the experts' range. -/
theorem rowExpert_eq_of_range (R : Fin 16384) (e lo hi : Nat) (h0 : lo ≤ R.val) (h1 : R.val < hi) (hlo : 128 ∣ lo) (hhi : 128 ∣ hi)
    (he : ∀ t, lo ≤ t * 128 → t * 128 < hi → tileExpert t = e) (E : Fin 8) (hE : E.val = e) : rowExpert R = E :=
  Fin.ext ((rowExpert_range R e lo hi h0 h1 he hlo hhi).trans hE.symm)

/-- Entry (r, d) of the result. -/
def cell (x : (⟨2, ![16384, 1024]⟩ : Shape).Idx → EReal) (wi : (⟨3, ![8, 4096, 1024]⟩ : Shape).Idx → EReal)
    (wo : (⟨3, ![8, 1024, 4096]⟩ : Shape).Idx → EReal) (r : Fin 16384) (d : Fin 1024) : EReal :=
  ∑ f : Fin 4096, max (∑ k : Fin 1024, x (ix2 r k) * wi (ix3 (rowExpert r) f k)) 0 * wo (ix3 (rowExpert r) d f)

/-- The result array as one function of the three argument arrays. -/
def G (x : (⟨2, ![16384, 1024]⟩ : Shape).Idx → EReal) (wi : (⟨3, ![8, 4096, 1024]⟩ : Shape).Idx → EReal)
    (wo : (⟨3, ![8, 1024, 4096]⟩ : Shape).Idx → EReal) : (⟨2, ![16384, 1024]⟩ : Shape).Idx → EReal :=
  fun j => cell x wi wo (j 0) (j 1)

theorem G_ix2 (x : (⟨2, ![16384, 1024]⟩ : Shape).Idx → EReal) (wi : (⟨3, ![8, 4096, 1024]⟩ : Shape).Idx → EReal)
    (wo : (⟨3, ![8, 1024, 4096]⟩ : Shape).Idx → EReal) (r : Fin 16384) (d : Fin 1024) :
    G x wi wo (ix2 r d) = cell x wi wo r d := rfl

end Cert.Moe

end
-- ==== Proof.KernelTables.lean ====
/-
  The two prefetched tables of the row-tile pipeline, and the pipeline's side condition on them.

  The program itself writes the tables, as constants, before the region: table 0 gives each of the 128 row tiles its
  expert, table 1 its row block. Read off the constants, tile t's row block is t and its expert is the one that owns
  rows [128 t, 128 t + 128) (`Cert.Moe.tileExpert`). So every block the index maps name lies inside its array: a row
  block index is below 128 = 16384 / 128 and an expert index below 8. The 16-bit windows' transfers end on whole words:
  a row block starts at row 128 t and has 128 rows, both even; an expert's weight block takes every row of its slab.
  Nothing here depends on the float instance.
-/
import proofs.«177393_j69965017252291_1_alg».proof.Proof.Gen.Kernel.Frame
import proofs.«177393_j69965017252291_1_alg».proof.Proof.Spec
import Idealize.ShloMosaic.Lib.StableHlo.Run

set_option maxRecDepth 16384

noncomputable section

namespace Cert.Kernel.Tables

open Cert.Kernel Cert.Kernel.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- When the region is entered, table 0 holds the first constant, -/
theorem tbl0_eq : tbl m 0 = fun i => lit0 (S128.rowMajor i) := by
  unfold tbl
  show V m 0 main_c = _
  dsimp only [V, hostOps0]
  after_results
  rfl

/-- and table 1 the second. -/
theorem tbl1_eq : tbl m 1 = fun i => lit1 (S128.rowMajor i) := by
  unfold tbl
  show V m 0 main_c_0 = _
  dsimp only [V, hostOps0]
  after_results
  rfl

/-- The first constant, entry by entry, is the tiles' experts; the second is 0, 1, …, 127. -/
theorem lit0_val : ∀ k : Fin 128, (lit0 k).toNat = Cert.Moe.tileExpert k.val := by decide
theorem lit1_val : ∀ k : Fin 128, (lit1 k).toNat = k.val := by decide

/-- Table 0 at tile t is t's expert. -/
theorem word0 (x : S128.Idx) : (tbl m 0 x).toNat = Cert.Moe.tileExpert (x 0).val := by
  rw [tbl0_eq]
  exact (lit0_val (S128.rowMajor x)).trans (congrArg Cert.Moe.tileExpert (Shape.rowMajor_val_one x))

/-- Table 1 at tile t is t. -/
theorem word1 (x : S128.Idx) : (tbl m 1 x).toNat = (x 0).val := by
  rw [tbl1_eq]
  exact (lit1_val (S128.rowMajor x)).trans (Shape.rowMajor_val_one x)

/-- Row block w < 128 of a [16384, 1024] array in blocks of [128, 1024] is inside it; its rows start at 128 w and number
    128, so at a packing that divides 128 it is whole words. -/
theorem rowBlock_ok (ix : Fin 2 → Nat) (w : Nat) (hw : w < 128) (e : ix = ![w, 0]) (p : Nat) (hp : p ∣ 128) :
    ∃ h : (∀ a, (ix a + 1) * S128x1024.size a ≤ S16384x1024.size a),
      (Rect.block (s := S16384x1024) S128x1024.size ix h).WholeWords p := by
  subst e
  refine ⟨fun a => ?_, Or.inl (Or.inr ⟨by decide, rfl, Or.inl ⟨?_, ?_⟩⟩)⟩
  · fin_cases a <;> simp [S128x1024, S16384x1024] <;> omega
  · show p ∣ w * 128
    exact Dvd.dvd.mul_left hp w
  · show p ∣ 128
    exact hp

/-- Expert e < 8's [1, 4096, 1024] block of the [8, 4096, 1024] weights is inside them and takes its slab's rows from 0. -/
theorem expertBlock1_ok (ix : Fin 3 → Nat) (e : Nat) (he : e < 8) (h : ix = ![e, 0, 0]) (p : Nat) (hp : p ∣ 4096) :
    ∃ h : (∀ a, (ix a + 1) * S1x4096x1024.size a ≤ S8x4096x1024.size a),
      (Rect.block (s := S8x4096x1024) S1x4096x1024.size ix h).WholeWords p := by
  subst h
  refine ⟨fun a => ?_, Or.inl (Or.inr ⟨by decide, rfl, Or.inl ⟨?_, ?_⟩⟩)⟩
  · fin_cases a <;> simp [S1x4096x1024, S8x4096x1024] <;> omega
  · show p ∣ 0 * 4096
    simp
  · show p ∣ 4096
    exact hp

/-- The same for the [1, 1024, 4096] block of the [8, 1024, 4096] weights. -/
theorem expertBlock2_ok (ix : Fin 3 → Nat) (e : Nat) (he : e < 8) (h : ix = ![e, 0, 0]) (p : Nat) (hp : p ∣ 1024) :
    ∃ h : (∀ a, (ix a + 1) * S1x1024x4096.size a ≤ S8x1024x4096.size a),
      (Rect.block (s := S8x1024x4096) S1x1024x4096.size ix h).WholeWords p := by
  subst h
  refine ⟨fun a => ?_, Or.inl (Or.inr ⟨by decide, rfl, Or.inl ⟨?_, ?_⟩⟩)⟩
  · fin_cases a <;> simp [S1x1024x4096, S8x1024x4096] <;> omega
  · show p ∣ 0 * 1024
    simp
  · show p ∣ 1024
    exact hp

/-- THE SIDE CONDITION: at every tile the four windows' blocks are inside their arrays, their transfers word-exact. -/
theorem ok : Ok m := by
  refine ⟨fun i => ?_, fun i => ?_, fun i => ?_, fun i => ?_⟩
  · obtain ⟨w, hw, e⟩ : ∃ w : BitVec 32, w.toNat < 128 ∧ cc0_transform_0 k0_off1_inb numel1_S1 (tbl m) i = ![w.toNat, 0] :=
      ⟨_, lt_of_eq_of_lt (word1 m _) (Fin.isLt _), rfl⟩
    obtain ⟨h, hW⟩ := rowBlock_ok _ w.toNat hw e 2 (by decide)
    exact ⟨h, Or.inr hW⟩
  · obtain ⟨w, hw, e⟩ : ∃ w : BitVec 32, w.toNat < 8 ∧ cc0_transform_1 k0_off1_inb numel1_S1 (tbl m) i = ![w.toNat, 0, 0] :=
      ⟨_, lt_of_eq_of_lt (word0 m _) (Cert.Moe.tileExpert_lt _), rfl⟩
    obtain ⟨h, hW⟩ := expertBlock1_ok _ w.toNat hw e 2 (by decide)
    exact ⟨h, Or.inr hW⟩
  · obtain ⟨w, hw, e⟩ : ∃ w : BitVec 32, w.toNat < 8 ∧ cc0_transform_2 k0_off1_inb numel1_S1 (tbl m) i = ![w.toNat, 0, 0] :=
      ⟨_, lt_of_eq_of_lt (word0 m _) (Cert.Moe.tileExpert_lt _), rfl⟩
    obtain ⟨h, hW⟩ := expertBlock2_ok _ w.toNat hw e 2 (by decide)
    exact ⟨h, Or.inr hW⟩
  · obtain ⟨w, hw, e⟩ : ∃ w : BitVec 32, w.toNat < 128 ∧ cc0_transform_3 k0_off1_inb numel1_S1 (tbl m) i = ![w.toNat, 0] :=
      ⟨_, lt_of_eq_of_lt (word1 m _) (Fin.isLt _), rfl⟩
    obtain ⟨h, _⟩ := rowBlock_ok _ w.toNat hw e 2 (by decide)
    exact ⟨h, Or.inl rfl⟩

end Cert.Kernel.Tables

end
-- ==== Proof.KernelIdealTables.lean ====
/-
  The two prefetched tables of the row-tile pipeline, and the pipeline's side condition on them.

  The program itself writes the tables, as constants, before the region: table 0 gives each of the 128 row tiles its
  expert, table 1 its row block. Read off the constants, tile t's row block is t and its expert is the one that owns
  rows [128 t, 128 t + 128) (`Cert.Moe.tileExpert`). So every block the index maps name lies inside its array: a row
  block index is below 128 = 16384 / 128 and an expert index below 8. The 16-bit windows' transfers end on whole words:
  a row block starts at row 128 t and has 128 rows, both even; an expert's weight block takes every row of its slab.
  Nothing here depends on the float instance.
-/
import proofs.«177393_j69965017252291_1_alg».proof.Proof.Gen.KernelIdeal.Frame
import proofs.«177393_j69965017252291_1_alg».proof.Proof.Spec
import Idealize.ShloMosaic.Lib.StableHlo.Run

set_option maxRecDepth 16384

noncomputable section

namespace Cert.KernelIdeal.Tables

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- When the region is entered, table 0 holds the first constant, -/
theorem tbl0_eq : tbl m 0 = fun i => lit0 (S128.rowMajor i) := by
  unfold tbl
  show V m 0 main_c = _
  dsimp only [V, hostOps0]
  after_results
  rfl

/-- and table 1 the second. -/
theorem tbl1_eq : tbl m 1 = fun i => lit1 (S128.rowMajor i) := by
  unfold tbl
  show V m 0 main_c_0 = _
  dsimp only [V, hostOps0]
  after_results
  rfl

/-- The first constant, entry by entry, is the tiles' experts; the second is 0, 1, …, 127. -/
theorem lit0_val : ∀ k : Fin 128, (lit0 k).toNat = Cert.Moe.tileExpert k.val := by decide
theorem lit1_val : ∀ k : Fin 128, (lit1 k).toNat = k.val := by decide

/-- Table 0 at tile t is t's expert. -/
theorem word0 (x : S128.Idx) : (tbl m 0 x).toNat = Cert.Moe.tileExpert (x 0).val := by
  rw [tbl0_eq]
  exact (lit0_val (S128.rowMajor x)).trans (congrArg Cert.Moe.tileExpert (Shape.rowMajor_val_one x))

/-- Table 1 at tile t is t. -/
theorem word1 (x : S128.Idx) : (tbl m 1 x).toNat = (x 0).val := by
  rw [tbl1_eq]
  exact (lit1_val (S128.rowMajor x)).trans (Shape.rowMajor_val_one x)

/-- Row block w < 128 of a [16384, 1024] array in blocks of [128, 1024] is inside it; its rows start at 128 w and number
    128, so at a packing that divides 128 it is whole words. -/
theorem rowBlock_ok (ix : Fin 2 → Nat) (w : Nat) (hw : w < 128) (e : ix = ![w, 0]) (p : Nat) (hp : p ∣ 128) :
    ∃ h : (∀ a, (ix a + 1) * S128x1024.size a ≤ S16384x1024.size a),
      (Rect.block (s := S16384x1024) S128x1024.size ix h).WholeWords p := by
  subst e
  refine ⟨fun a => ?_, Or.inl (Or.inr ⟨by decide, rfl, Or.inl ⟨?_, ?_⟩⟩)⟩
  · fin_cases a <;> simp [S128x1024, S16384x1024] <;> omega
  · show p ∣ w * 128
    exact Dvd.dvd.mul_left hp w
  · show p ∣ 128
    exact hp

/-- Expert e < 8's [1, 4096, 1024] block of the [8, 4096, 1024] weights is inside them and takes its slab's rows from 0. -/
theorem expertBlock1_ok (ix : Fin 3 → Nat) (e : Nat) (he : e < 8) (h : ix = ![e, 0, 0]) (p : Nat) (hp : p ∣ 4096) :
    ∃ h : (∀ a, (ix a + 1) * S1x4096x1024.size a ≤ S8x4096x1024.size a),
      (Rect.block (s := S8x4096x1024) S1x4096x1024.size ix h).WholeWords p := by
  subst h
  refine ⟨fun a => ?_, Or.inl (Or.inr ⟨by decide, rfl, Or.inl ⟨?_, ?_⟩⟩)⟩
  · fin_cases a <;> simp [S1x4096x1024, S8x4096x1024] <;> omega
  · show p ∣ 0 * 4096
    simp
  · show p ∣ 4096
    exact hp

/-- The same for the [1, 1024, 4096] block of the [8, 1024, 4096] weights. -/
theorem expertBlock2_ok (ix : Fin 3 → Nat) (e : Nat) (he : e < 8) (h : ix = ![e, 0, 0]) (p : Nat) (hp : p ∣ 1024) :
    ∃ h : (∀ a, (ix a + 1) * S1x1024x4096.size a ≤ S8x1024x4096.size a),
      (Rect.block (s := S8x1024x4096) S1x1024x4096.size ix h).WholeWords p := by
  subst h
  refine ⟨fun a => ?_, Or.inl (Or.inr ⟨by decide, rfl, Or.inl ⟨?_, ?_⟩⟩)⟩
  · fin_cases a <;> simp [S1x1024x4096, S8x1024x4096] <;> omega
  · show p ∣ 0 * 1024
    simp
  · show p ∣ 1024
    exact hp

/-- THE SIDE CONDITION: at every tile the four windows' blocks are inside their arrays, their transfers word-exact. -/
theorem ok : Ok m := by
  refine ⟨fun i => ?_, fun i => ?_, fun i => ?_, fun i => ?_⟩
  · obtain ⟨w, hw, e⟩ : ∃ w : BitVec 32, w.toNat < 128 ∧ cc0_transform_0 k0_off1_inb numel1_S1 (tbl m) i = ![w.toNat, 0] :=
      ⟨_, lt_of_eq_of_lt (word1 m _) (Fin.isLt _), rfl⟩
    obtain ⟨h, hW⟩ := rowBlock_ok _ w.toNat hw e 2 (by decide)
    exact ⟨h, Or.inr hW⟩
  · obtain ⟨w, hw, e⟩ : ∃ w : BitVec 32, w.toNat < 8 ∧ cc0_transform_1 k0_off1_inb numel1_S1 (tbl m) i = ![w.toNat, 0, 0] :=
      ⟨_, lt_of_eq_of_lt (word0 m _) (Cert.Moe.tileExpert_lt _), rfl⟩
    obtain ⟨h, hW⟩ := expertBlock1_ok _ w.toNat hw e 2 (by decide)
    exact ⟨h, Or.inr hW⟩
  · obtain ⟨w, hw, e⟩ : ∃ w : BitVec 32, w.toNat < 8 ∧ cc0_transform_2 k0_off1_inb numel1_S1 (tbl m) i = ![w.toNat, 0, 0] :=
      ⟨_, lt_of_eq_of_lt (word0 m _) (Cert.Moe.tileExpert_lt _), rfl⟩
    obtain ⟨h, hW⟩ := expertBlock2_ok _ w.toNat hw e 2 (by decide)
    exact ⟨h, Or.inr hW⟩
  · obtain ⟨w, hw, e⟩ : ∃ w : BitVec 32, w.toNat < 128 ∧ cc0_transform_3 k0_off1_inb numel1_S1 (tbl m) i = ![w.toNat, 0] :=
      ⟨_, lt_of_eq_of_lt (word1 m _) (Fin.isLt _), rfl⟩
    obtain ⟨h, _⟩ := rowBlock_ok _ w.toNat hw e 2 (by decide)
    exact ⟨h, Or.inl rfl⟩

end Cert.KernelIdeal.Tables

end
-- ==== Proof.KernelIdealBlocks.lean ====
/-
  What each tile's windows hold, at the extended reals.

  The grid has 128 tiles. From the tables' contents (table 1 the identity, table 0 the tiles' experts) the index maps
  are closed forms: tile t's window on x and its window on the result are row block t, rows [128 t, 128 t + 128); its
  windows on wi and wo are block e of the weights, e the expert of tile t. Before the region the program converts the
  three arguments to a 16-bit format, which at the extended reals changes nothing, so each fetched block reads the
  argument array itself: x[128 t + p, k], wi[e, f, k], wo[e, d, f].
-/
import proofs.«177393_j69965017252291_1_alg».proof.Proof.KernelIdealTables
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Tables
open Idealize.ShloMosaic Idealize.ShloMosaic.TcCoe Idealize.SL.Sem

variable {F : FTy → Type} [FloatOps F]

/-- On the one-axis grid of 128 tiles, tile t's coordinate is t. -/
theorem coord0 (t : Fin grid0.N) : ((grid0.coords t) 0).val = t.val := by
  have h : t.val < 128 := t.isLt
  show t.val / grid0.stride 0 % grid0.bound 0 = t.val
  have s : grid0.stride 0 = 1 := by decide
  have b : grid0.bound 0 = 128 := rfl
  rw [s, b]; omega

/-- The table index an index map reads at grid point i is i's coordinate. -/
theorem tix (i : grid0.Coords) (inb : ∀ a, (![(Scalar.indexCast (BitVec.ofNat 32 (i 0).val)).toNat] : Fin 1 → Nat) a + S1.size a ≤ S128.size a) (h1 : 0 < S1.numel) :
    (((Rect.unit (s := S128) ![(Scalar.indexCast (BitVec.ofNat 32 (i 0).val)).toNat] S1.size inb).emb (Shape.Idx.first h1)) 0).val = (i 0).val := by
  show (Scalar.indexCast (BitVec.ofNat 32 (i 0).val)).toNat + 1 * (Shape.Idx.first h1 (0 : Fin 1)).val = (i 0).val
  have h0 : (Shape.Idx.first h1 (0 : Fin 1)).val = 0 := by
    have := (Shape.Idx.first h1 (0 : Fin 1)).isLt
    have e : S1.size (0 : Fin 1) = 1 := by decide
    omega
  have hi : (i 0).val < 128 := (i 0).isLt
  have : (Scalar.indexCast (BitVec.ofNat 32 (i 0).val)).toNat = (i 0).val := by
    show (BitVec.ofNat 32 (i 0).val).toNat = _
    rw [BitVec.toNat_ofNat]; omega
  rw [this, h0]; omega

/-- With table 1 the identity, the row windows' index maps send tile i to row block i;
    with table 0 the tiles' experts, the weight windows' maps send it to its expert's block. -/
theorem transform0_eq (pf : pre0.Contents (Elt F)) (hw : ∀ x : S128.Idx, (pf 1 x).toNat = (x 0).val) (i : grid0.Coords) :
    cc0_transform_0 k0_off1_inb numel1_S1 pf i = ![(i 0).val, 0] := by
  funext a
  match a with
  | ⟨0, _⟩ =>
    exact (hw _).trans (tix i _ _)
  | ⟨1, _⟩ => rfl

theorem transform3_eq (pf : pre0.Contents (Elt F)) (hw : ∀ x : S128.Idx, (pf 1 x).toNat = (x 0).val) (i : grid0.Coords) :
    cc0_transform_3 k0_off1_inb numel1_S1 pf i = ![(i 0).val, 0] := by
  funext a
  match a with
  | ⟨0, _⟩ =>
    exact (hw _).trans (tix i _ _)
  | ⟨1, _⟩ => rfl

theorem transform1_eq (pf : pre0.Contents (Elt F)) (hw : ∀ x : S128.Idx, (pf 0 x).toNat = Cert.Moe.tileExpert (x 0).val) (i : grid0.Coords) :
    cc0_transform_1 k0_off1_inb numel1_S1 pf i = ![Cert.Moe.tileExpert (i 0).val, 0, 0] := by
  funext a
  match a with
  | ⟨0, _⟩ =>
    exact (hw _).trans (congrArg Cert.Moe.tileExpert (tix i _ _))
  | ⟨1, _⟩ => rfl
  | ⟨2, _⟩ => rfl

theorem transform2_eq (pf : pre0.Contents (Elt F)) (hw : ∀ x : S128.Idx, (pf 0 x).toNat = Cert.Moe.tileExpert (x 0).val) (i : grid0.Coords) :
    cc0_transform_2 k0_off1_inb numel1_S1 pf i = ![Cert.Moe.tileExpert (i 0).val, 0, 0] := by
  funext a
  match a with
  | ⟨0, _⟩ =>
    exact (hw _).trans (congrArg Cert.Moe.tileExpert (tix i _ _))
  | ⟨1, _⟩ => rfl
  | ⟨2, _⟩ => rfl

/-- The windows' block indices at a point, at any admissible contents. -/
theorem index0 (a : (pcfg0 (F := F)).Adm) (t : Fin (cfg0 a).N) : ((cfg0 a).win 0).index t = cc0_transform_0 k0_off1_inb numel1_S1 a.1 (grid0.coords t) := rfl
theorem index1 (a : (pcfg0 (F := F)).Adm) (t : Fin (cfg0 a).N) : ((cfg0 a).win 1).index t = cc0_transform_1 k0_off1_inb numel1_S1 a.1 (grid0.coords t) := rfl
theorem index2 (a : (pcfg0 (F := F)).Adm) (t : Fin (cfg0 a).N) : ((cfg0 a).win 2).index t = cc0_transform_2 k0_off1_inb numel1_S1 a.1 (grid0.coords t) := rfl
theorem index3 (a : (pcfg0 (F := F)).Adm) (t : Fin (cfg0 a).N) : ((cfg0 a).win 3).index t = cc0_transform_3 k0_off1_inb numel1_S1 a.1 (grid0.coords t) := rfl

open Idealize.ShloMosaic.ValueIdx Idealize.ShloMosaic.StableHlo
open Idealize.ShloMosaic.Pipeline (Dat)

variable (m : (ℓ : Loc nD τ sig) → Buf (Elt Ideal) ℓ) (ρ : Dev nD → PrngReg)

/-- At the tables the region reads: tile t fetches and writes row block t, and fetches its expert's weight blocks. -/
theorem rowIdx0 (hO : Ok m) (t : Fin (cfgM m hO).N) : ((cfgM m hO).win 0).index t = ![t.val, 0] :=
  (index0 (adm m hO) t).trans ((transform0_eq (tbl m) (word1 m) _).trans (by rw [coord0]))
theorem rowIdx3 (hO : Ok m) (t : Fin (cfgM m hO).N) : ((cfgM m hO).win 3).index t = ![t.val, 0] :=
  (index3 (adm m hO) t).trans ((transform3_eq (tbl m) (word1 m) _).trans (by rw [coord0]))
theorem expIdx1 (hO : Ok m) (t : Fin (cfgM m hO).N) : ((cfgM m hO).win 1).index t = ![Cert.Moe.tileExpert t.val, 0, 0] :=
  (index1 (adm m hO) t).trans ((transform1_eq (tbl m) (word0 m) _).trans (by rw [coord0]))
theorem expIdx2 (hO : Ok m) (t : Fin (cfgM m hO).N) : ((cfgM m hO).win 2).index t = ![Cert.Moe.tileExpert t.val, 0, 0] :=
  (index2 (adm m hO) t).trans ((transform2_eq (tbl m) (word0 m) _).trans (by rw [coord0]))

/-- The converted arrays the windows read are, at the extended reals, the arguments. -/
theorem V_v0 (c : Dev nD) : (V m c main_v0 : S16384x1024.Idx → EReal) = (m ((c : Thread nD τ).loc main_arg0) : S16384x1024.Idx → EReal) := by
  dsimp only [V, hostOps0]; after_results; rfl
theorem V_v1 (c : Dev nD) : (V m c main_v1 : S8x4096x1024.Idx → EReal) = (m ((c : Thread nD τ).loc main_arg1) : S8x4096x1024.Idx → EReal) := by
  dsimp only [V, hostOps0]; after_results; rfl
theorem V_v2 (c : Dev nD) : (V m c main_v2 : S8x1024x4096.Idx → EReal) = (m ((c : Thread nD τ).loc main_arg2) : S8x1024x4096.Idx → EReal) := by
  dsimp only [V, hostOps0]; after_results; rfl

/-- Tile t's block of x, read at (p, k), is x at row 128 t + p. -/
theorem iblk0_apply (hO : Ok m) (c : Dev nD) (t : Fin (cfgM m hO).N) (p : Fin 128) (k : Fin 1024) (R : Fin 16384) (hR : R.val = t.val * 128 + p.val) :
    iblk m hO c 0 t (ix2 p k) = m ((c : Thread nD τ).loc main_arg0) (ix2 R k) := by
  show V m c main_v0 ((((cfgM m hO).win 0).blk t).view.emb (ix2 p k)) = _
  refine (congrFun (V_v0 m c) _).trans (congrArg (m ((c : Thread nD τ).loc main_arg0)) ?_)
  funext a; apply Fin.ext
  match a with
  | ⟨0, _⟩ =>
    show ((cfgM m hO).win 0).index t (0 : Fin 2) * 128 + 1 * p.val = R.val
    rw [rowIdx0]; show t.val * 128 + 1 * p.val = R.val; omega
  | ⟨1, _⟩ =>
    show ((cfgM m hO).win 0).index t (1 : Fin 2) * 1024 + 1 * k.val = k.val
    rw [rowIdx0]; show 0 * 1024 + 1 * k.val = k.val; omega

/-- Tile t's block of wi is its expert's: at (0, f, k) it reads wi[e, f, k]. -/
theorem iblk1_apply (hO : Ok m) (c : Dev nD) (t : Fin (cfgM m hO).N) (f : Fin 4096) (k : Fin 1024) (E : Fin 8) (hE : E.val = Cert.Moe.tileExpert t.val) :
    iblk m hO c 1 t (ix3 (0 : Fin 1) f k) = m ((c : Thread nD τ).loc main_arg1) (ix3 E f k) := by
  show V m c main_v1 ((((cfgM m hO).win 1).blk t).view.emb (ix3 (0 : Fin 1) f k)) = _
  refine (congrFun (V_v1 m c) _).trans (congrArg (m ((c : Thread nD τ).loc main_arg1)) ?_)
  funext a; apply Fin.ext
  match a with
  | ⟨0, _⟩ =>
    show ((cfgM m hO).win 1).index t (0 : Fin 3) * 1 + 1 * 0 = E.val
    rw [expIdx1]; show Cert.Moe.tileExpert t.val * 1 + 1 * 0 = E.val; omega
  | ⟨1, _⟩ =>
    show ((cfgM m hO).win 1).index t (1 : Fin 3) * 4096 + 1 * f.val = f.val
    rw [expIdx1]; show 0 * 4096 + 1 * f.val = f.val; omega
  | ⟨2, _⟩ =>
    show ((cfgM m hO).win 1).index t (2 : Fin 3) * 1024 + 1 * k.val = k.val
    rw [expIdx1]; show 0 * 1024 + 1 * k.val = k.val; omega

/-- Tile t's block of wo is its expert's: at (0, d, f) it reads wo[e, d, f]. -/
theorem iblk2_apply (hO : Ok m) (c : Dev nD) (t : Fin (cfgM m hO).N) (d : Fin 1024) (f : Fin 4096) (E : Fin 8) (hE : E.val = Cert.Moe.tileExpert t.val) :
    iblk m hO c 2 t (ix3 (0 : Fin 1) d f) = m ((c : Thread nD τ).loc main_arg2) (ix3 E d f) := by
  show V m c main_v2 ((((cfgM m hO).win 2).blk t).view.emb (ix3 (0 : Fin 1) d f)) = _
  refine (congrFun (V_v2 m c) _).trans (congrArg (m ((c : Thread nD τ).loc main_arg2)) ?_)
  funext a; apply Fin.ext
  match a with
  | ⟨0, _⟩ =>
    show ((cfgM m hO).win 2).index t (0 : Fin 3) * 1 + 1 * 0 = E.val
    rw [expIdx2]; show Cert.Moe.tileExpert t.val * 1 + 1 * 0 = E.val; omega
  | ⟨1, _⟩ =>
    show ((cfgM m hO).win 2).index t (1 : Fin 3) * 1024 + 1 * d.val = d.val
    rw [expIdx2]; show 0 * 1024 + 1 * d.val = d.val; omega
  | ⟨2, _⟩ =>
    show ((cfgM m hO).win 2).index t (2 : Fin 3) * 4096 + 1 * f.val = f.val
    rw [expIdx2]; show 0 * 4096 + 1 * f.val = f.val; omega

/-- The three argument arrays, as extended reals. -/
abbrev xs (c : Dev nD) : S16384x1024.Idx → EReal := m ((c : Thread nD τ).loc main_arg0)
abbrev wis (c : Dev nD) : S8x4096x1024.Idx → EReal := m ((c : Thread nD τ).loc main_arg1)
abbrev wos (c : Dev nD) : S8x1024x4096.Idx → EReal := m ((c : Thread nD τ).loc main_arg2)

end Cert.KernelIdeal.Blocks

end
-- ==== Proof.KernelIdealPiece.lean ====
/-
  What one run of the body leaves in the output's staging block.

  The body loads its three input blocks whole, computes, and ends with ONE store of the whole [128, 1024] output block
  (the load of the output block before it is not used). So whatever the staging block held before, after the body it
  holds the stored value: the body's arithmetic of the three loaded blocks. This holds at every float instance.
-/
import proofs.«177393_j69965017252291_1_alg».proof.Proof.Gen.KernelIdeal.Frame
import Idealize.ShloMosaic.Lib.Pipeline.Value

set_option maxRecDepth 16384

noncomputable section

namespace Cert.KernelIdeal.Piece

open Cert.KernelIdeal Cert.KernelIdeal.Gen
open Idealize.ShloMosaic Idealize.ShloMosaic.TcCoe Idealize.ShloMosaic.Tactic Idealize.SL.Sem

variable {F : FTy → Type} [FloatOps F]

/-- The loads and the store start at offset zero on every axis. -/
theorem zero2 : (![0, 0] : Fin 2 → Nat) = fun _ => 0 := funext fun a => by fin_cases a <;> rfl
theorem zero3 : (![0, 0, 0] : Fin 3 → Nat) = fun _ => 0 := funext fun a => by fin_cases a <;> rfl

/-- THE OUTPUT BLOCK after the body: the stored value, a function of the three input blocks alone. -/
theorem out_eq (c : Dev nD) (i : grid0.Coords) (arg3 : Memref sig .tc .vmem S128x1024 .bf16) (harg3 : arg3.IsWhole)
    (arg4 : Memref sig .tc .vmem S1x4096x1024 .bf16) (harg4 : arg4.IsWhole) (arg5 : Memref sig .tc .vmem S1x1024x4096 .bf16) (harg5 : arg5.IsWhole)
    (arg6 : Memref sig .tc .vmem S128x1024 .f32) (harg6 : arg6.IsWhole)
    (x0 : Vec F S128x1024 .bf16) (x1 : Vec F S1x4096x1024 .bf16) (x2 : Vec F S1x1024x4096 .bf16)
    (xt0 : TbBuf0 (F := F) c tbM0_0) (xt1 : TbBuf0 (F := F) c tbM0_1) :
    out0_A_3 c i arg3 harg3 arg4 harg4 arg5 harg5 arg6 harg6 x0 x1 x2 xt0 xt1 = k0_pay1 x0 x1 x2 := by
  unfold out0_A_3
  rw [View.read_writes_eq_canon _ _ _ (cover0_A_3 c i arg3 harg3 arg4 harg4 arg5 harg5 arg6 harg6 x0 x1 x2 xt0 xt1)]
  unfold kernelRun0_A
  dsimp only
  sl_unfold_words
  rw [View.canon_unit_zero zero2]
  simp only [View.readAt_eq_ld, Memref.IsWhole.read_unread, View.ld_unit_zero (S := S128x1024) zero2,
    View.ld_unit_zero (S := S1x4096x1024) zero3, View.ld_unit_zero (S := S1x1024x4096) zero3]

end Cert.KernelIdeal.Piece

end
-- ==== Proof.KernelIdealMatmulA.lean ====
/-
  A matrix product that contracts the second axis of both operands, read at an entry.

  The body's first product takes a [128, 1024] left operand and a [4096, 1024] right operand into a [128, 4096] result,
  contracting axis 1 of each (the right operand is used transposed), into a zero accumulator. At the extended reals its
  entry (p, n) is the sum over k < 1024 of l[p, k] * r[n, k]: the accumulator contributes 0, and the dimension numbers' operand
  indices at result index (p, n) and contraction position k are (p, k) and (n, k).
-/
import proofs.«177393_j69965017252291_1_alg».proof.Proof.Gen.KernelIdeal.Skeleton
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx

/-- The left operand's row is the result's row; its column is the contraction position. -/
theorem lhsA_0 (i : S128x4096.Idx) (q : dot_S128x1024_S4096x1024_S128x4096_1_1_0_0_n_n.contr.Idx) :
    (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem lhsA_1 (i : S128x4096.Idx) (q : dot_S128x1024_S4096x1024_S128x4096_1_1_0_0_n_n.contr.Idx) :
    (dot_S128x1024_S4096x1024_S128x4096_1_1_0_0_n_n.lhsIdx i q 1).val = (q ⟨0, by decide⟩).val :=
  dot_S128x1024_S4096x1024_S128x4096_1_1_0_0_n_n.lhsIdx_val_of_single rfl i q
/-- The right operand's row is the result's column; its column is the contraction position. -/
theorem rhsA_0 (i : S128x4096.Idx) (q : dot_S128x1024_S4096x1024_S128x4096_1_1_0_0_n_n.contr.Idx) :
    (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem rhsA_1 (i : S128x4096.Idx) (q : dot_S128x1024_S4096x1024_S128x4096_1_1_0_0_n_n.contr.Idx) :
    (dot_S128x1024_S4096x1024_S128x4096_1_1_0_0_n_n.rhsIdx i q 1).val = (q ⟨0, by decide⟩).val :=
  dot_S128x1024_S4096x1024_S128x4096_1_1_0_0_n_n.rhsIdx_val_of_single rfl i q

/-- Entry (p, n) of the product is the sum over k of l[p, k] * r[n, k]. -/
theorem matmulA_apply (l : FVec Ideal S128x1024 .bf16) (r : FVec Ideal S4096x1024 .bf16) (p : Fin 128) (n : Fin 4096) :
    matmul dot_S128x1024_S4096x1024_S128x4096_1_1_0_0_n_n none l r (constant S128x4096 .f32 0x00000000#32) (ix2 p n) = ∑ k : Fin 1024, l (ix2 p k) * r (ix2 n k) := by
  simp only [matmul]
  rw [Ideal.matmul_constant_zero_apply, ← Equiv.sum_comp (contrEquiv1 dot_S128x1024_S4096x1024_S128x4096_1_1_0_0_n_n 1024 rfl rfl).symm]
  refine Finset.sum_congr rfl fun k _ => ?_
  have hk := contrEquiv1_symm_val dot_S128x1024_S4096x1024_S128x4096_1_1_0_0_n_n 1024 rfl rfl k
  have el : dot_S128x1024_S4096x1024_S128x4096_1_1_0_0_n_n.lhsIdx (ix2 p n) ((contrEquiv1 dot_S128x1024_S4096x1024_S128x4096_1_1_0_0_n_n 1024 rfl rfl).symm k) = ix2 p k := funext fun a => Fin.ext (by
    match a with
    | ⟨0, _⟩ => exact lhsA_0 _ _
    | ⟨1, _⟩ => exact (lhsA_1 _ _).trans hk)
  have er : dot_S128x1024_S4096x1024_S128x4096_1_1_0_0_n_n.rhsIdx (ix2 p n) ((contrEquiv1 dot_S128x1024_S4096x1024_S128x4096_1_1_0_0_n_n 1024 rfl rfl).symm k) = ix2 n k := funext fun a => Fin.ext (by
    match a with
    | ⟨0, _⟩ => exact rhsA_0 _ _
    | ⟨1, _⟩ => exact (rhsA_1 _ _).trans hk)
  rw [el, er]

end Cert.KernelIdeal.Payload

end
-- ==== Proof.KernelIdealMatmulB.lean ====
/-
  A matrix product that contracts the second axis of both operands, read at an entry.

  The body's second product takes a [128, 4096] left operand and a [1024, 4096] right operand into a [128, 1024] result,
  contracting axis 1 of each (the right operand is used transposed), into a zero accumulator. At the extended reals its
  entry (p, n) is the sum over k < 4096 of l[p, k] * r[n, k]: the accumulator contributes 0, and the dimension numbers' operand
  indices at result index (p, n) and contraction position k are (p, k) and (n, k).
-/
import proofs.«177393_j69965017252291_1_alg».proof.Proof.Gen.KernelIdeal.Skeleton
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx

/-- The left operand's row is the result's row; its column is the contraction position. -/
theorem lhsB_0 (i : S128x1024.Idx) (q : dot_S128x4096_S1024x4096_S128x1024_1_1_0_0_n_n.contr.Idx) :
    (dot_S128x4096_S1024x4096_S128x1024_1_1_0_0_n_n.lhsIdx i q 0).val = (i 0).val := by
  unfold DotDims.lhsIdx
  rw [dif_neg (show ¬(0 : Fin S128x4096.rank) ∈ dot_S128x4096_S1024x4096_S128x1024_1_1_0_0_n_n.lhsBatch by decide), dif_pos (show (0 : Fin S128x4096.rank) ∈ dot_S128x4096_S1024x4096_S128x1024_1_1_0_0_n_n.lhsNonContracting by decide)]
  rfl
theorem lhsB_1 (i : S128x1024.Idx) (q : dot_S128x4096_S1024x4096_S128x1024_1_1_0_0_n_n.contr.Idx) :
    (dot_S128x4096_S1024x4096_S128x1024_1_1_0_0_n_n.lhsIdx i q 1).val = (q ⟨0, by decide⟩).val :=
  dot_S128x4096_S1024x4096_S128x1024_1_1_0_0_n_n.lhsIdx_val_of_single rfl i q
/-- The right operand's row is the result's column; its column is the contraction position. -/
theorem rhsB_0 (i : S128x1024.Idx) (q : dot_S128x4096_S1024x4096_S128x1024_1_1_0_0_n_n.contr.Idx) :
    (dot_S128x4096_S1024x4096_S128x1024_1_1_0_0_n_n.rhsIdx i q 0).val = (i 1).val := by
  unfold DotDims.rhsIdx
  rw [dif_neg (show ¬(0 : Fin S1024x4096.rank) ∈ dot_S128x4096_S1024x4096_S128x1024_1_1_0_0_n_n.rhsBatch by decide), dif_pos (show (0 : Fin S1024x4096.rank) ∈ dot_S128x4096_S1024x4096_S128x1024_1_1_0_0_n_n.rhsNonContracting by decide)]
  rfl
theorem rhsB_1 (i : S128x1024.Idx) (q : dot_S128x4096_S1024x4096_S128x1024_1_1_0_0_n_n.contr.Idx) :
    (dot_S128x4096_S1024x4096_S128x1024_1_1_0_0_n_n.rhsIdx i q 1).val = (q ⟨0, by decide⟩).val :=
  dot_S128x4096_S1024x4096_S128x1024_1_1_0_0_n_n.rhsIdx_val_of_single rfl i q

/-- Entry (p, n) of the product is the sum over k of l[p, k] * r[n, k]. -/
theorem matmulB_apply (l : FVec Ideal S128x4096 .bf16) (r : FVec Ideal S1024x4096 .bf16) (p : Fin 128) (n : Fin 1024) :
    matmul dot_S128x4096_S1024x4096_S128x1024_1_1_0_0_n_n none l r (constant S128x1024 .f32 0x00000000#32) (ix2 p n) = ∑ k : Fin 4096, l (ix2 p k) * r (ix2 n k) := by
  simp only [matmul]
  rw [Ideal.matmul_constant_zero_apply, ← Equiv.sum_comp (contrEquiv1 dot_S128x4096_S1024x4096_S128x1024_1_1_0_0_n_n 4096 rfl rfl).symm]
  refine Finset.sum_congr rfl fun k _ => ?_
  have hk := contrEquiv1_symm_val dot_S128x4096_S1024x4096_S128x1024_1_1_0_0_n_n 4096 rfl rfl k
  have el : dot_S128x4096_S1024x4096_S128x1024_1_1_0_0_n_n.lhsIdx (ix2 p n) ((contrEquiv1 dot_S128x4096_S1024x4096_S128x1024_1_1_0_0_n_n 4096 rfl rfl).symm k) = ix2 p k := funext fun a => Fin.ext (by
    match a with
    | ⟨0, _⟩ => exact lhsB_0 _ _
    | ⟨1, _⟩ => exact (lhsB_1 _ _).trans hk)
  have er : dot_S128x4096_S1024x4096_S128x1024_1_1_0_0_n_n.rhsIdx (ix2 p n) ((contrEquiv1 dot_S128x4096_S1024x4096_S128x1024_1_1_0_0_n_n 4096 rfl rfl).symm k) = ix2 n k := funext fun a => Fin.ext (by
    match a with
    | ⟨0, _⟩ => exact rhsB_0 _ _
    | ⟨1, _⟩ => exact (rhsB_1 _ _).trans hk)
  rw [el, er]

end Cert.KernelIdeal.Payload

end
-- ==== Proof.KernelIdealPayload.lean ====
/-
  The body's arithmetic at an entry, read at the extended reals.

  The body multiplies its [128, 1024] block of rows by its expert's [4096, 1024] block (second axes contracted), takes
  the maximum with 0, changes the float format (the identity at the extended reals), and multiplies by the expert's
  [1024, 4096] block (second axes contracted again). The weight blocks arrive with a leading unit axis, which a shape
  cast drops. So from blocks x, wi, wo, entry (p, q) of what the body stores is

      sum over f < 4096 of  max (sum over k < 1024 of x[p, k] * wi[0, f, k], 0) * wo[0, q, f].
-/
import proofs.«177393_j69965017252291_1_alg».proof.Proof.KernelIdealMatmulA
import proofs.«177393_j69965017252291_1_alg».proof.Proof.KernelIdealMatmulB
import Idealize.ShloMosaic.Lib.ValueLayout
import Idealize.ShloMosaic.Lib.Pipeline.Value

noncomputable section

namespace Cert.KernelIdeal.Payload

open Cert.KernelIdeal Cert.KernelIdeal.Gen
open Idealize.ShloMosaic Idealize.ShloMosaic.ValueIdx

/-- THE BODY'S VALUE at entry (p, q), from the three loaded blocks. -/
theorem pay_apply (x0 : FVec Ideal S128x1024 .bf16) (x1 : FVec Ideal S1x4096x1024 .bf16) (x2 : FVec Ideal S1x1024x4096 .bf16)
    (p : Fin 128) (q : Fin 1024) :
    k0_pay1 (F := Ideal) x0 x1 x2 (ix2 p q)
      = ∑ f : Fin 4096, max (∑ k : Fin 1024, x0 (ix2 p k) * x1 (ix3 (0 : Fin 1) f k)) 0 * x2 (ix3 (0 : Fin 1) q f) := by
  unfold k0_pay1
  refine (matmulB_apply _ _ p q).trans ?_
  refine Finset.sum_congr rfl fun f _ => ?_
  rw [shapeCast_1ab_ab_apply]
  refine congrArg (· * x2 (ix3 (0 : Fin 1) q f)) ?_
  show max (matmul dot_S128x1024_S4096x1024_S128x4096_1_1_0_0_n_n none _ _ (constant S128x4096 .f32 0x00000000#32) (ix2 p f)) (Ideal.ofBits .f32 0x00000000#32) = _
  rw [matmulA_apply, Ideal.ofBits_zero_f32]
  refine congrArg (max · 0) ?_
  refine Finset.sum_congr rfl fun k _ => ?_
  rw [shapeCast_self, shapeCast_1ab_ab_apply]

end Cert.KernelIdeal.Payload

end
-- ==== Proof.KernelIdealValue.lean ====
/-
  The array the kernel leaves, at the extended reals.

  Tile t's run of the body leaves in the output block the body's arithmetic of the tile's three blocks; read at (p, q)
  with the blocks' contents this is entry (128 t + p, q) of the specification, the expert of row 128 t + p being tile t's.
  Every tile writes its block back (consecutive tiles have different row blocks), and row r lies in tile r / 128's block,
  so the 128 blocks cover the array: after the region the result array is the specification of the three arguments.
-/
import proofs.«177393_j69965017252291_1_alg».proof.Proof.KernelIdealBlocks
import proofs.«177393_j69965017252291_1_alg».proof.Proof.KernelIdealPiece
import proofs.«177393_j69965017252291_1_alg».proof.Proof.KernelIdealPayload

set_option maxRecDepth 16384

noncomputable section

namespace Cert.KernelIdeal.Value

open Cert.KernelIdeal Cert.KernelIdeal.Gen Cert.KernelIdeal.Tables Cert.KernelIdeal.Blocks
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What the body leaves at tile t: its arithmetic of the tile's three blocks. -/
theorem outs_eq (hO : Ok m) (c : Dev nD) (t : Fin (cfgM m hO).N) :
    outsAt0 m hO c t = k0_pay1 (F := Ideal) (iblk m hO c 0 t) (iblk m hO c 1 t) (iblk m hO c 2 t) := by
  unfold outsAt0
  exact Piece.out_eq c (grid0.coords t) (ms0_0 m hO t) (hs0_0 m hO t) (ms0_1 m hO t) (hs0_1 m hO t) (ms0_2 m hO t) (hs0_2 m hO t)
    (ms0_3 m hO t) (hs0_3 m hO t) (iblk m hO c 0 t) (iblk m hO c 1 t) (iblk m hO c 2 t) (tbl m 0) (tbl m 1)

/-- Entry (p, q) of tile t's block is entry (128 t + p, q) of the specification. -/
theorem tile_eq (hO : Ok m) (c : Dev nD) (t : Fin (cfgM m hO).N) (p : Fin 128) (q : Fin 1024) (R : Fin 16384) (hR : R.val = t.val * 128 + p.val) :
    k0_pay1 (F := Ideal) (iblk m hO c 0 t) (iblk m hO c 1 t) (iblk m hO c 2 t) (ix2 p q) = Cert.Moe.cell (xs m c) (wis m c) (wos m c) R q := by
  have ht : t.val < 128 := t.isLt
  have hE : (Cert.Moe.rowExpert R).val = Cert.Moe.tileExpert t.val := Cert.Moe.rowExpert_tile ⟨t.val, ht⟩ p R hR
  refine (Payload.pay_apply (iblk m hO c 0 t) (iblk m hO c 1 t) (iblk m hO c 2 t) p q).trans ?_
  unfold Cert.Moe.cell
  refine Finset.sum_congr rfl fun f _ => ?_
  rw [iblk2_apply m hO c t q f (Cert.Moe.rowExpert R) hE]
  refine congrArg (· * wos m c (ix3 (Cert.Moe.rowExpert R) q f)) ?_
  refine congrArg (max · 0) (Finset.sum_congr rfl fun k _ => ?_)
  rw [iblk0_apply m hO c t p k R hR, iblk1_apply m hO c t f k (Cert.Moe.rowExpert R) hE]

/-- WHAT TILE t WRITES BACK is its block of the specification. -/
theorem flushed_eq (hO : Ok m) (c : Dev nD) (t : Fin (cfgM m hO).N) :
    (dats m hO 0 c).flushed 3 t = (((cfgM m hO).win 3).blk t).view.read (Elt Ideal) (Cert.Moe.G (xs m c) (wis m c) (wos m c)) := by
  show ((cfgM m hO).win 3).cut (grid0.coords t) ((dats m hO 0 c).after 3 t) = _
  rw [after0_3, outs_eq]
  refine funext fun (y : S128x1024.Idx) => ?_
  obtain ⟨p, q, rfl⟩ : ∃ (p : Fin 128) (q : Fin 1024), y = ix2 p q := ⟨y 0, y 1, eq_ix2 y⟩
  have ht : t.val < 128 := t.isLt
  refine (tile_eq m hO c t p q ⟨t.val * 128 + p.val, by have := p.isLt; omega⟩ rfl).trans ?_
  show _ = Cert.Moe.G (xs m c) (wis m c) (wos m c) ((((cfgM m hO).win 3).blk t).view.emb (ix2 p q))
  refine (Cert.Moe.G_ix2 _ _ _ _ _).symm.trans (congrArg (Cert.Moe.G (xs m c) (wis m c) (wos m c)) ?_)
  funext a; apply Fin.ext
  match a with
  | ⟨0, _⟩ =>
    show t.val * 128 + p.val = ((cfgM m hO).win 3).index t (0 : Fin 2) * 128 + 1 * p.val
    rw [rowIdx3]; show t.val * 128 + p.val = t.val * 128 + 1 * p.val; omega
  | ⟨1, _⟩ =>
    show q.val = ((cfgM m hO).win 3).index t (1 : Fin 2) * 1024 + 1 * q.val
    rw [rowIdx3]; show q.val = 0 * 1024 + 1 * q.val; omega

/-- Every tile writes its block back: the next tile's row block is another. -/
theorem flush3 (hO : Ok m) (t : Fin (cfgM m hO).N) : ((cfgM m hO).win 3).flush t = true := by
  unfold Pipeline.Window.flush
  have hout : ((cfgM m hO).win 3).isOut = true := rfl
  rw [hout, Bool.true_and]
  by_cases h : t.val + 1 = grid0.N
  · simp [h]
  · have ht : t.val < grid0.N := t.isLt
    have h' : t.val + 1 < grid0.N := by omega
    rw [Bool.or_eq_true]
    right
    rw [decide_eq_true_eq]
    refine ⟨h', ?_⟩
    rw [rowIdx3, rowIdx3]
    intro e
    have e0 := congrFun e 0
    simp at e0

/-- Row r lies in the block of tile r / 128, which is written back: the blocks cover the array. -/
theorem cover (hO : Ok m) (i : S16384x1024.Idx) : ∃ t : Fin (cfgM m hO).N, ((cfgM m hO).win 3).flush t = true ∧ i ∈ (((cfgM m hO).win 3).blk t).view.set := by
  have hi0 : (i 0).val < 16384 := (i 0).isLt
  have hi1 : (i 1).val < 1024 := (i 1).isLt
  let t : Fin (cfgM m hO).N := ⟨(i 0).val / 128, by show (i 0).val / 128 < 128; omega⟩
  refine ⟨t, flush3 m hO t, ?_⟩
  have e : i = (((cfgM m hO).win 3).blk t).view.emb (ix2 (⟨(i 0).val % 128, Nat.mod_lt _ (by decide)⟩ : Fin 128) (⟨(i 1).val, hi1⟩ : Fin 1024)) := by
    funext a; apply Fin.ext
    match a with
    | ⟨0, _⟩ =>
      show (i 0).val = ((cfgM m hO).win 3).index t (0 : Fin 2) * 128 + 1 * ((i 0).val % 128)
      rw [rowIdx3]; show (i 0).val = (i 0).val / 128 * 128 + 1 * ((i 0).val % 128); omega
    | ⟨1, _⟩ =>
      show (i 1).val = ((cfgM m hO).win 3).index t (1 : Fin 2) * 1024 + 1 * (i 1).val
      rw [rowIdx3]; show (i 1).val = 0 * 1024 + 1 * (i 1).val; omega
  have hmem := (((cfgM m hO).win 3).blk t).view.emb_mem_set (ix2 (⟨(i 0).val % 128, Nat.mod_lt _ (by decide)⟩ : Fin 128) (⟨(i 1).val, hi1⟩ : Fin 1024))
  rw [← e] at hmem
  exact hmem

/-- THE RESULT ARRAY after the region is the specification of the three arguments. -/
theorem final (hO : Ok m) (c : Dev nD) : (dats m hO 0 c).arrAt 3 (cfgM m hO).N = Cert.Moe.G (xs m c) (wis m c) (wos m c) :=
  (dats m hO 0 c).arrAt_eq_of_cover 3 (Cert.Moe.G (xs m c) (wis m c) (wos m c)) (fun t _ => flushed_eq m hO c t) (cover m hO)

/-- THE KERNEL'S RUN with its result named: every execution ends with the result array at the specification of the
    arguments, and the arguments as they were. -/
theorem run : θ_run defs (onTc (τ := τ) (main (F := Ideal))) ⟨m, fun _ => 0, ρ⟩ fun r => ∀ c : Dev nD,
      r.2.mem ((c : Thread nD τ).loc main_v3) = Cert.Moe.G (xs m c) (wis m c) (wos m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  have hO : Ok m := Tables.ok m
  refine (θ_run defs _ _).mono (fun _ hq c => ?_) (run_main m ρ hO)
  exact ⟨((hq c).1 3).trans (final m hO c),
    ((hq c).2 main_arg0 (by decide : main_arg0 ∈ Pipeline.restRefs sig spec0)).trans (V_main_arg0 m c),
    ((hq c).2 main_arg1 (by decide : main_arg1 ∈ Pipeline.restRefs sig spec0)).trans (V_main_arg1 m c),
    ((hq c).2 main_arg2 (by decide : main_arg2 ∈ Pipeline.restRefs sig spec0)).trans (V_main_arg2 m c)⟩

end Cert.KernelIdeal.Value

end
-- ==== Proof.RefPiece0.lean ====
/-
  The reference on one expert's rows.

  For an expert e the reference slices the expert's rows out of x, takes block e of each weight array, and computes
  max (x_e · wi_e^T, 0) · wo_e^T, both products contracting the operands' second axes. Read at row r of the slice and
  column d this is the sum over f of max (sum over k of x[off + r, k] * wi[e, f, k], 0) * wo[e, d, f], with off the slice's
  first row: entry (off + r, d) of the specification, because every row of the slice has expert e.
-/
import proofs.«177393_j69965017252291_1_alg».proof.Proof.Gen.ReferenceIdeal.Read
import proofs.«177393_j69965017252291_1_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- Expert 0: rows 0 to 3071. -/
theorem piece0 (x0 : (⟨S16384x1024, .f32⟩ : BufTy).Contents (Elt Ideal)) (x1 : (⟨S8x4096x1024, .f32⟩ : BufTy).Contents (Elt Ideal))
    (x2 : (⟨S8x1024x4096, .f32⟩ : BufTy).Contents (Elt Ideal)) (r : Fin 3072) (d : Fin 1024) (R : Fin 16384) (hR : R.val = 0 + r.val) :
    val_main_v7 (F := Ideal) x0 x1 x2 (ix2 r d) = Cert.Moe.cell x0 x1 x2 R d := by
  have hr := r.isLt
  have he : Cert.Moe.rowExpert R = (0 : Fin 8) :=
    Cert.Moe.rowExpert_eq_of_range R 0 0 3072 (by omega) (by omega) ⟨0, rfl⟩ ⟨24, rfl⟩
      (fun t h0 h1 => by unfold Cert.Moe.tileExpert; split_ifs <;> omega) 0 rfl
  rw [val_main_v7_apply]
  unfold Cert.Moe.cell
  rw [he]
  refine Finset.sum_congr rfl fun f _ => ?_
  rw [val_main_v4_apply, val_main_v3_apply, val_main_call0_v0_apply, val_main_call0_cst_apply, val_main_v6_apply, val_main_v5_apply]
  -- the second product's right operand: block e of wo at (d, f)
  have e2 : idx_main_v5 (idx_main_v6 (ridx_main_v7 (ix2 r d) f)) = ix3 (0 : Fin 8) d f := funext fun a => Fin.ext (by
    have hd := d.isLt
    have hf := f.isLt
    match a with
    | ⟨0, _⟩ => rfl
    | ⟨1, _⟩ => show (d.val * 4096 + f.val) / 4096 % 1024 = d.val; omega
    | ⟨2, _⟩ => show (d.val * 4096 + f.val) % 4096 = f.val; omega)
  rw [e2]
  refine congrArg (· * x2 (ix3 (0 : Fin 8) d f)) ?_
  show max _ (Ideal.ofBits .f32 0x00000000#32) = _
  rw [Ideal.ofBits_zero_f32]
  refine congrArg (max · 0) (Finset.sum_congr rfl fun k _ => ?_)
  rw [val_main_v0_apply, val_main_v2_apply, val_main_v1_apply]
  -- the first product's operands: row off + r of x at k, and block e of wi at (f, k)
  have e0 : idx_main_v0 (lidx_main_v3 (lidx_main_v7 (ix2 r d) f) k) = ix2 R k := funext fun a => Fin.ext (by
    match a with
    | ⟨0, _⟩ => show r.val = R.val; omega
    | ⟨1, _⟩ => rfl)
  have e1 : idx_main_v1 (idx_main_v2 (ridx_main_v3 (lidx_main_v7 (ix2 r d) f) k)) = ix3 (0 : Fin 8) f k := funext fun a => Fin.ext (by
    have hk := k.isLt
    have hf := f.isLt
    match a with
    | ⟨0, _⟩ => rfl
    | ⟨1, _⟩ => show (f.val * 1024 + k.val) / 1024 % 4096 = f.val; omega
    | ⟨2, _⟩ => show (f.val * 1024 + k.val) % 1024 = k.val; omega)
  rw [e0, e1]

end Cert.ReferenceIdeal.RefValue

end
-- ==== Proof.RefPiece1.lean ====
/-
  The reference on one expert's rows.

  For an expert e the reference slices the expert's rows out of x, takes block e of each weight array, and computes
  max (x_e · wi_e^T, 0) · wo_e^T, both products contracting the operands' second axes. Read at row r of the slice and
  column d this is the sum over f of max (sum over k of x[off + r, k] * wi[e, f, k], 0) * wo[e, d, f], with off the slice's
  first row: entry (off + r, d) of the specification, because every row of the slice has expert e.
-/
import proofs.«177393_j69965017252291_1_alg».proof.Proof.Gen.ReferenceIdeal.Read
import proofs.«177393_j69965017252291_1_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- Expert 1: rows 3072 to 4095. -/
theorem piece1 (x0 : (⟨S16384x1024, .f32⟩ : BufTy).Contents (Elt Ideal)) (x1 : (⟨S8x4096x1024, .f32⟩ : BufTy).Contents (Elt Ideal))
    (x2 : (⟨S8x1024x4096, .f32⟩ : BufTy).Contents (Elt Ideal)) (r : Fin 1024) (d : Fin 1024) (R : Fin 16384) (hR : R.val = 3072 + r.val) :
    val_main_v15 (F := Ideal) x0 x1 x2 (ix2 r d) = Cert.Moe.cell x0 x1 x2 R d := by
  have hr := r.isLt
  have he : Cert.Moe.rowExpert R = (1 : Fin 8) :=
    Cert.Moe.rowExpert_eq_of_range R 1 3072 4096 (by omega) (by omega) ⟨24, rfl⟩ ⟨32, rfl⟩
      (fun t h0 h1 => by unfold Cert.Moe.tileExpert; split_ifs <;> omega) 1 rfl
  rw [val_main_v15_apply]
  unfold Cert.Moe.cell
  rw [he]
  refine Finset.sum_congr rfl fun f _ => ?_
  rw [val_main_v12_apply, val_main_v11_apply, val_main_call1_v0_apply, val_main_call1_cst_apply, val_main_v14_apply, val_main_v13_apply]
  -- the second product's right operand: block e of wo at (d, f)
  have e2 : idx_main_v13 (idx_main_v14 (ridx_main_v15 (ix2 r d) f)) = ix3 (1 : Fin 8) d f := funext fun a => Fin.ext (by
    have hd := d.isLt
    have hf := f.isLt
    match a with
    | ⟨0, _⟩ => rfl
    | ⟨1, _⟩ => show (d.val * 4096 + f.val) / 4096 % 1024 = d.val; omega
    | ⟨2, _⟩ => show (d.val * 4096 + f.val) % 4096 = f.val; omega)
  rw [e2]
  refine congrArg (· * x2 (ix3 (1 : Fin 8) d f)) ?_
  show max _ (Ideal.ofBits .f32 0x00000000#32) = _
  rw [Ideal.ofBits_zero_f32]
  refine congrArg (max · 0) (Finset.sum_congr rfl fun k _ => ?_)
  rw [val_main_v8_apply, val_main_v10_apply, val_main_v9_apply]
  -- the first product's operands: row off + r of x at k, and block e of wi at (f, k)
  have e0 : idx_main_v8 (lidx_main_v11 (lidx_main_v15 (ix2 r d) f) k) = ix2 R k := funext fun a => Fin.ext (by
    match a with
    | ⟨0, _⟩ => show 3072 + r.val = R.val; omega
    | ⟨1, _⟩ => rfl)
  have e1 : idx_main_v9 (idx_main_v10 (ridx_main_v11 (lidx_main_v15 (ix2 r d) f) k)) = ix3 (1 : Fin 8) f k := funext fun a => Fin.ext (by
    have hk := k.isLt
    have hf := f.isLt
    match a with
    | ⟨0, _⟩ => rfl
    | ⟨1, _⟩ => show (f.val * 1024 + k.val) / 1024 % 4096 = f.val; omega
    | ⟨2, _⟩ => show (f.val * 1024 + k.val) % 1024 = k.val; omega)
  rw [e0, e1]

end Cert.ReferenceIdeal.RefValue

end
-- ==== Proof.RefPiece2.lean ====
/-
  The reference on one expert's rows.

  For an expert e the reference slices the expert's rows out of x, takes block e of each weight array, and computes
  max (x_e · wi_e^T, 0) · wo_e^T, both products contracting the operands' second axes. Read at row r of the slice and
  column d this is the sum over f of max (sum over k of x[off + r, k] * wi[e, f, k], 0) * wo[e, d, f], with off the slice's
  first row: entry (off + r, d) of the specification, because every row of the slice has expert e.
-/
import proofs.«177393_j69965017252291_1_alg».proof.Proof.Gen.ReferenceIdeal.Read
import proofs.«177393_j69965017252291_1_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- Expert 2: rows 4096 to 6655. -/
theorem piece2 (x0 : (⟨S16384x1024, .f32⟩ : BufTy).Contents (Elt Ideal)) (x1 : (⟨S8x4096x1024, .f32⟩ : BufTy).Contents (Elt Ideal))
    (x2 : (⟨S8x1024x4096, .f32⟩ : BufTy).Contents (Elt Ideal)) (r : Fin 2560) (d : Fin 1024) (R : Fin 16384) (hR : R.val = 4096 + r.val) :
    val_main_v23 (F := Ideal) x0 x1 x2 (ix2 r d) = Cert.Moe.cell x0 x1 x2 R d := by
  have hr := r.isLt
  have he : Cert.Moe.rowExpert R = (2 : Fin 8) :=
    Cert.Moe.rowExpert_eq_of_range R 2 4096 6656 (by omega) (by omega) ⟨32, rfl⟩ ⟨52, rfl⟩
      (fun t h0 h1 => by unfold Cert.Moe.tileExpert; split_ifs <;> omega) 2 rfl
  rw [val_main_v23_apply]
  unfold Cert.Moe.cell
  rw [he]
  refine Finset.sum_congr rfl fun f _ => ?_
  rw [val_main_v20_apply, val_main_v19_apply, val_main_call2_v0_apply, val_main_call2_cst_apply, val_main_v22_apply, val_main_v21_apply]
  -- the second product's right operand: block e of wo at (d, f)
  have e2 : idx_main_v21 (idx_main_v22 (ridx_main_v23 (ix2 r d) f)) = ix3 (2 : Fin 8) d f := funext fun a => Fin.ext (by
    have hd := d.isLt
    have hf := f.isLt
    match a with
    | ⟨0, _⟩ => rfl
    | ⟨1, _⟩ => show (d.val * 4096 + f.val) / 4096 % 1024 = d.val; omega
    | ⟨2, _⟩ => show (d.val * 4096 + f.val) % 4096 = f.val; omega)
  rw [e2]
  refine congrArg (· * x2 (ix3 (2 : Fin 8) d f)) ?_
  show max _ (Ideal.ofBits .f32 0x00000000#32) = _
  rw [Ideal.ofBits_zero_f32]
  refine congrArg (max · 0) (Finset.sum_congr rfl fun k _ => ?_)
  rw [val_main_v16_apply, val_main_v18_apply, val_main_v17_apply]
  -- the first product's operands: row off + r of x at k, and block e of wi at (f, k)
  have e0 : idx_main_v16 (lidx_main_v19 (lidx_main_v23 (ix2 r d) f) k) = ix2 R k := funext fun a => Fin.ext (by
    match a with
    | ⟨0, _⟩ => show 4096 + r.val = R.val; omega
    | ⟨1, _⟩ => rfl)
  have e1 : idx_main_v17 (idx_main_v18 (ridx_main_v19 (lidx_main_v23 (ix2 r d) f) k)) = ix3 (2 : Fin 8) f k := funext fun a => Fin.ext (by
    have hk := k.isLt
    have hf := f.isLt
    match a with
    | ⟨0, _⟩ => rfl
    | ⟨1, _⟩ => show (f.val * 1024 + k.val) / 1024 % 4096 = f.val; omega
    | ⟨2, _⟩ => show (f.val * 1024 + k.val) % 1024 = k.val; omega)
  rw [e0, e1]

end Cert.ReferenceIdeal.RefValue

end
-- ==== Proof.RefPiece3.lean ====
/-
  The reference on one expert's rows.

  For an expert e the reference slices the expert's rows out of x, takes block e of each weight array, and computes
  max (x_e · wi_e^T, 0) · wo_e^T, both products contracting the operands' second axes. Read at row r of the slice and
  column d this is the sum over f of max (sum over k of x[off + r, k] * wi[e, f, k], 0) * wo[e, d, f], with off the slice's
  first row: entry (off + r, d) of the specification, because every row of the slice has expert e.
-/
import proofs.«177393_j69965017252291_1_alg».proof.Proof.Gen.ReferenceIdeal.Read
import proofs.«177393_j69965017252291_1_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- Expert 3: rows 6656 to 8191. -/
theorem piece3 (x0 : (⟨S16384x1024, .f32⟩ : BufTy).Contents (Elt Ideal)) (x1 : (⟨S8x4096x1024, .f32⟩ : BufTy).Contents (Elt Ideal))
    (x2 : (⟨S8x1024x4096, .f32⟩ : BufTy).Contents (Elt Ideal)) (r : Fin 1536) (d : Fin 1024) (R : Fin 16384) (hR : R.val = 6656 + r.val) :
    val_main_v31 (F := Ideal) x0 x1 x2 (ix2 r d) = Cert.Moe.cell x0 x1 x2 R d := by
  have hr := r.isLt
  have he : Cert.Moe.rowExpert R = (3 : Fin 8) :=
    Cert.Moe.rowExpert_eq_of_range R 3 6656 8192 (by omega) (by omega) ⟨52, rfl⟩ ⟨64, rfl⟩
      (fun t h0 h1 => by unfold Cert.Moe.tileExpert; split_ifs <;> omega) 3 rfl
  rw [val_main_v31_apply]
  unfold Cert.Moe.cell
  rw [he]
  refine Finset.sum_congr rfl fun f _ => ?_
  rw [val_main_v28_apply, val_main_v27_apply, val_main_call3_v0_apply, val_main_call3_cst_apply, val_main_v30_apply, val_main_v29_apply]
  -- the second product's right operand: block e of wo at (d, f)
  have e2 : idx_main_v29 (idx_main_v30 (ridx_main_v31 (ix2 r d) f)) = ix3 (3 : Fin 8) d f := funext fun a => Fin.ext (by
    have hd := d.isLt
    have hf := f.isLt
    match a with
    | ⟨0, _⟩ => rfl
    | ⟨1, _⟩ => show (d.val * 4096 + f.val) / 4096 % 1024 = d.val; omega
    | ⟨2, _⟩ => show (d.val * 4096 + f.val) % 4096 = f.val; omega)
  rw [e2]
  refine congrArg (· * x2 (ix3 (3 : Fin 8) d f)) ?_
  show max _ (Ideal.ofBits .f32 0x00000000#32) = _
  rw [Ideal.ofBits_zero_f32]
  refine congrArg (max · 0) (Finset.sum_congr rfl fun k _ => ?_)
  rw [val_main_v24_apply, val_main_v26_apply, val_main_v25_apply]
  -- the first product's operands: row off + r of x at k, and block e of wi at (f, k)
  have e0 : idx_main_v24 (lidx_main_v27 (lidx_main_v31 (ix2 r d) f) k) = ix2 R k := funext fun a => Fin.ext (by
    match a with
    | ⟨0, _⟩ => show 6656 + r.val = R.val; omega
    | ⟨1, _⟩ => rfl)
  have e1 : idx_main_v25 (idx_main_v26 (ridx_main_v27 (lidx_main_v31 (ix2 r d) f) k)) = ix3 (3 : Fin 8) f k := funext fun a => Fin.ext (by
    have hk := k.isLt
    have hf := f.isLt
    match a with
    | ⟨0, _⟩ => rfl
    | ⟨1, _⟩ => show (f.val * 1024 + k.val) / 1024 % 4096 = f.val; omega
    | ⟨2, _⟩ => show (f.val * 1024 + k.val) % 1024 = k.val; omega)
  rw [e0, e1]

end Cert.ReferenceIdeal.RefValue

end
-- ==== Proof.RefPiece4.lean ====
/-
  The reference on one expert's rows.

  For an expert e the reference slices the expert's rows out of x, takes block e of each weight array, and computes
  max (x_e · wi_e^T, 0) · wo_e^T, both products contracting the operands' second axes. Read at row r of the slice and
  column d this is the sum over f of max (sum over k of x[off + r, k] * wi[e, f, k], 0) * wo[e, d, f], with off the slice's
  first row: entry (off + r, d) of the specification, because every row of the slice has expert e.
-/
import proofs.«177393_j69965017252291_1_alg».proof.Proof.Gen.ReferenceIdeal.Read
import proofs.«177393_j69965017252291_1_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- Expert 4: rows 8192 to 10239. -/
theorem piece4 (x0 : (⟨S16384x1024, .f32⟩ : BufTy).Contents (Elt Ideal)) (x1 : (⟨S8x4096x1024, .f32⟩ : BufTy).Contents (Elt Ideal))
    (x2 : (⟨S8x1024x4096, .f32⟩ : BufTy).Contents (Elt Ideal)) (r : Fin 2048) (d : Fin 1024) (R : Fin 16384) (hR : R.val = 8192 + r.val) :
    val_main_v39 (F := Ideal) x0 x1 x2 (ix2 r d) = Cert.Moe.cell x0 x1 x2 R d := by
  have hr := r.isLt
  have he : Cert.Moe.rowExpert R = (4 : Fin 8) :=
    Cert.Moe.rowExpert_eq_of_range R 4 8192 10240 (by omega) (by omega) ⟨64, rfl⟩ ⟨80, rfl⟩
      (fun t h0 h1 => by unfold Cert.Moe.tileExpert; split_ifs <;> omega) 4 rfl
  rw [val_main_v39_apply]
  unfold Cert.Moe.cell
  rw [he]
  refine Finset.sum_congr rfl fun f _ => ?_
  rw [val_main_v36_apply, val_main_v35_apply, val_main_call4_v0_apply, val_main_call4_cst_apply, val_main_v38_apply, val_main_v37_apply]
  -- the second product's right operand: block e of wo at (d, f)
  have e2 : idx_main_v37 (idx_main_v38 (ridx_main_v39 (ix2 r d) f)) = ix3 (4 : Fin 8) d f := funext fun a => Fin.ext (by
    have hd := d.isLt
    have hf := f.isLt
    match a with
    | ⟨0, _⟩ => rfl
    | ⟨1, _⟩ => show (d.val * 4096 + f.val) / 4096 % 1024 = d.val; omega
    | ⟨2, _⟩ => show (d.val * 4096 + f.val) % 4096 = f.val; omega)
  rw [e2]
  refine congrArg (· * x2 (ix3 (4 : Fin 8) d f)) ?_
  show max _ (Ideal.ofBits .f32 0x00000000#32) = _
  rw [Ideal.ofBits_zero_f32]
  refine congrArg (max · 0) (Finset.sum_congr rfl fun k _ => ?_)
  rw [val_main_v32_apply, val_main_v34_apply, val_main_v33_apply]
  -- the first product's operands: row off + r of x at k, and block e of wi at (f, k)
  have e0 : idx_main_v32 (lidx_main_v35 (lidx_main_v39 (ix2 r d) f) k) = ix2 R k := funext fun a => Fin.ext (by
    match a with
    | ⟨0, _⟩ => show 8192 + r.val = R.val; omega
    | ⟨1, _⟩ => rfl)
  have e1 : idx_main_v33 (idx_main_v34 (ridx_main_v35 (lidx_main_v39 (ix2 r d) f) k)) = ix3 (4 : Fin 8) f k := funext fun a => Fin.ext (by
    have hk := k.isLt
    have hf := f.isLt
    match a with
    | ⟨0, _⟩ => rfl
    | ⟨1, _⟩ => show (f.val * 1024 + k.val) / 1024 % 4096 = f.val; omega
    | ⟨2, _⟩ => show (f.val * 1024 + k.val) % 1024 = k.val; omega)
  rw [e0, e1]

end Cert.ReferenceIdeal.RefValue

end
-- ==== Proof.RefPiece5.lean ====
/-
  The reference on one expert's rows.

  For an expert e the reference slices the expert's rows out of x, takes block e of each weight array, and computes
  max (x_e · wi_e^T, 0) · wo_e^T, both products contracting the operands' second axes. Read at row r of the slice and
  column d this is the sum over f of max (sum over k of x[off + r, k] * wi[e, f, k], 0) * wo[e, d, f], with off the slice's
  first row: entry (off + r, d) of the specification, because every row of the slice has expert e.
-/
import proofs.«177393_j69965017252291_1_alg».proof.Proof.Gen.ReferenceIdeal.Read
import proofs.«177393_j69965017252291_1_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- Expert 5: rows 10240 to 12287. -/
theorem piece5 (x0 : (⟨S16384x1024, .f32⟩ : BufTy).Contents (Elt Ideal)) (x1 : (⟨S8x4096x1024, .f32⟩ : BufTy).Contents (Elt Ideal))
    (x2 : (⟨S8x1024x4096, .f32⟩ : BufTy).Contents (Elt Ideal)) (r : Fin 2048) (d : Fin 1024) (R : Fin 16384) (hR : R.val = 10240 + r.val) :
    val_main_v47 (F := Ideal) x0 x1 x2 (ix2 r d) = Cert.Moe.cell x0 x1 x2 R d := by
  have hr := r.isLt
  have he : Cert.Moe.rowExpert R = (5 : Fin 8) :=
    Cert.Moe.rowExpert_eq_of_range R 5 10240 12288 (by omega) (by omega) ⟨80, rfl⟩ ⟨96, rfl⟩
      (fun t h0 h1 => by unfold Cert.Moe.tileExpert; split_ifs <;> omega) 5 rfl
  rw [val_main_v47_apply]
  unfold Cert.Moe.cell
  rw [he]
  refine Finset.sum_congr rfl fun f _ => ?_
  rw [val_main_v44_apply, val_main_v43_apply, val_main_call5_v0_apply, val_main_call5_cst_apply, val_main_v46_apply, val_main_v45_apply]
  -- the second product's right operand: block e of wo at (d, f)
  have e2 : idx_main_v45 (idx_main_v46 (ridx_main_v47 (ix2 r d) f)) = ix3 (5 : Fin 8) d f := funext fun a => Fin.ext (by
    have hd := d.isLt
    have hf := f.isLt
    match a with
    | ⟨0, _⟩ => rfl
    | ⟨1, _⟩ => show (d.val * 4096 + f.val) / 4096 % 1024 = d.val; omega
    | ⟨2, _⟩ => show (d.val * 4096 + f.val) % 4096 = f.val; omega)
  rw [e2]
  refine congrArg (· * x2 (ix3 (5 : Fin 8) d f)) ?_
  show max _ (Ideal.ofBits .f32 0x00000000#32) = _
  rw [Ideal.ofBits_zero_f32]
  refine congrArg (max · 0) (Finset.sum_congr rfl fun k _ => ?_)
  rw [val_main_v40_apply, val_main_v42_apply, val_main_v41_apply]
  -- the first product's operands: row off + r of x at k, and block e of wi at (f, k)
  have e0 : idx_main_v40 (lidx_main_v43 (lidx_main_v47 (ix2 r d) f) k) = ix2 R k := funext fun a => Fin.ext (by
    match a with
    | ⟨0, _⟩ => show 10240 + r.val = R.val; omega
    | ⟨1, _⟩ => rfl)
  have e1 : idx_main_v41 (idx_main_v42 (ridx_main_v43 (lidx_main_v47 (ix2 r d) f) k)) = ix3 (5 : Fin 8) f k := funext fun a => Fin.ext (by
    have hk := k.isLt
    have hf := f.isLt
    match a with
    | ⟨0, _⟩ => rfl
    | ⟨1, _⟩ => show (f.val * 1024 + k.val) / 1024 % 4096 = f.val; omega
    | ⟨2, _⟩ => show (f.val * 1024 + k.val) % 1024 = k.val; omega)
  rw [e0, e1]

end Cert.ReferenceIdeal.RefValue

end
-- ==== Proof.RefPiece6.lean ====
/-
  The reference on one expert's rows.

  For an expert e the reference slices the expert's rows out of x, takes block e of each weight array, and computes
  max (x_e · wi_e^T, 0) · wo_e^T, both products contracting the operands' second axes. Read at row r of the slice and
  column d this is the sum over f of max (sum over k of x[off + r, k] * wi[e, f, k], 0) * wo[e, d, f], with off the slice's
  first row: entry (off + r, d) of the specification, because every row of the slice has expert e.
-/
import proofs.«177393_j69965017252291_1_alg».proof.Proof.Gen.ReferenceIdeal.Read
import proofs.«177393_j69965017252291_1_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- Expert 6: rows 12288 to 14847. -/
theorem piece6 (x0 : (⟨S16384x1024, .f32⟩ : BufTy).Contents (Elt Ideal)) (x1 : (⟨S8x4096x1024, .f32⟩ : BufTy).Contents (Elt Ideal))
    (x2 : (⟨S8x1024x4096, .f32⟩ : BufTy).Contents (Elt Ideal)) (r : Fin 2560) (d : Fin 1024) (R : Fin 16384) (hR : R.val = 12288 + r.val) :
    val_main_v55 (F := Ideal) x0 x1 x2 (ix2 r d) = Cert.Moe.cell x0 x1 x2 R d := by
  have hr := r.isLt
  have he : Cert.Moe.rowExpert R = (6 : Fin 8) :=
    Cert.Moe.rowExpert_eq_of_range R 6 12288 14848 (by omega) (by omega) ⟨96, rfl⟩ ⟨116, rfl⟩
      (fun t h0 h1 => by unfold Cert.Moe.tileExpert; split_ifs <;> omega) 6 rfl
  rw [val_main_v55_apply]
  unfold Cert.Moe.cell
  rw [he]
  refine Finset.sum_congr rfl fun f _ => ?_
  rw [val_main_v52_apply, val_main_v51_apply, val_main_call6_v0_apply, val_main_call6_cst_apply, val_main_v54_apply, val_main_v53_apply]
  -- the second product's right operand: block e of wo at (d, f)
  have e2 : idx_main_v53 (idx_main_v54 (ridx_main_v55 (ix2 r d) f)) = ix3 (6 : Fin 8) d f := funext fun a => Fin.ext (by
    have hd := d.isLt
    have hf := f.isLt
    match a with
    | ⟨0, _⟩ => rfl
    | ⟨1, _⟩ => show (d.val * 4096 + f.val) / 4096 % 1024 = d.val; omega
    | ⟨2, _⟩ => show (d.val * 4096 + f.val) % 4096 = f.val; omega)
  rw [e2]
  refine congrArg (· * x2 (ix3 (6 : Fin 8) d f)) ?_
  show max _ (Ideal.ofBits .f32 0x00000000#32) = _
  rw [Ideal.ofBits_zero_f32]
  refine congrArg (max · 0) (Finset.sum_congr rfl fun k _ => ?_)
  rw [val_main_v48_apply, val_main_v50_apply, val_main_v49_apply]
  -- the first product's operands: row off + r of x at k, and block e of wi at (f, k)
  have e0 : idx_main_v48 (lidx_main_v51 (lidx_main_v55 (ix2 r d) f) k) = ix2 R k := funext fun a => Fin.ext (by
    match a with
    | ⟨0, _⟩ => show 12288 + r.val = R.val; omega
    | ⟨1, _⟩ => rfl)
  have e1 : idx_main_v49 (idx_main_v50 (ridx_main_v51 (lidx_main_v55 (ix2 r d) f) k)) = ix3 (6 : Fin 8) f k := funext fun a => Fin.ext (by
    have hk := k.isLt
    have hf := f.isLt
    match a with
    | ⟨0, _⟩ => rfl
    | ⟨1, _⟩ => show (f.val * 1024 + k.val) / 1024 % 4096 = f.val; omega
    | ⟨2, _⟩ => show (f.val * 1024 + k.val) % 1024 = k.val; omega)
  rw [e0, e1]

end Cert.ReferenceIdeal.RefValue

end
-- ==== Proof.RefPiece7.lean ====
/-
  The reference on one expert's rows.

  For an expert e the reference slices the expert's rows out of x, takes block e of each weight array, and computes
  max (x_e · wi_e^T, 0) · wo_e^T, both products contracting the operands' second axes. Read at row r of the slice and
  column d this is the sum over f of max (sum over k of x[off + r, k] * wi[e, f, k], 0) * wo[e, d, f], with off the slice's
  first row: entry (off + r, d) of the specification, because every row of the slice has expert e.
-/
import proofs.«177393_j69965017252291_1_alg».proof.Proof.Gen.ReferenceIdeal.Read
import proofs.«177393_j69965017252291_1_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- Expert 7: rows 14848 to 16383. -/
theorem piece7 (x0 : (⟨S16384x1024, .f32⟩ : BufTy).Contents (Elt Ideal)) (x1 : (⟨S8x4096x1024, .f32⟩ : BufTy).Contents (Elt Ideal))
    (x2 : (⟨S8x1024x4096, .f32⟩ : BufTy).Contents (Elt Ideal)) (r : Fin 1536) (d : Fin 1024) (R : Fin 16384) (hR : R.val = 14848 + r.val) :
    val_main_v63 (F := Ideal) x0 x1 x2 (ix2 r d) = Cert.Moe.cell x0 x1 x2 R d := by
  have hr := r.isLt
  have he : Cert.Moe.rowExpert R = (7 : Fin 8) :=
    Cert.Moe.rowExpert_eq_of_range R 7 14848 16384 (by omega) (by omega) ⟨116, rfl⟩ ⟨128, rfl⟩
      (fun t h0 h1 => by unfold Cert.Moe.tileExpert; split_ifs <;> omega) 7 rfl
  rw [val_main_v63_apply]
  unfold Cert.Moe.cell
  rw [he]
  refine Finset.sum_congr rfl fun f _ => ?_
  rw [val_main_v60_apply, val_main_v59_apply, val_main_call7_v0_apply, val_main_call7_cst_apply, val_main_v62_apply, val_main_v61_apply]
  -- the second product's right operand: block e of wo at (d, f)
  have e2 : idx_main_v61 (idx_main_v62 (ridx_main_v63 (ix2 r d) f)) = ix3 (7 : Fin 8) d f := funext fun a => Fin.ext (by
    have hd := d.isLt
    have hf := f.isLt
    match a with
    | ⟨0, _⟩ => rfl
    | ⟨1, _⟩ => show (d.val * 4096 + f.val) / 4096 % 1024 = d.val; omega
    | ⟨2, _⟩ => show (d.val * 4096 + f.val) % 4096 = f.val; omega)
  rw [e2]
  refine congrArg (· * x2 (ix3 (7 : Fin 8) d f)) ?_
  show max _ (Ideal.ofBits .f32 0x00000000#32) = _
  rw [Ideal.ofBits_zero_f32]
  refine congrArg (max · 0) (Finset.sum_congr rfl fun k _ => ?_)
  rw [val_main_v56_apply, val_main_v58_apply, val_main_v57_apply]
  -- the first product's operands: row off + r of x at k, and block e of wi at (f, k)
  have e0 : idx_main_v56 (lidx_main_v59 (lidx_main_v63 (ix2 r d) f) k) = ix2 R k := funext fun a => Fin.ext (by
    match a with
    | ⟨0, _⟩ => show 14848 + r.val = R.val; omega
    | ⟨1, _⟩ => rfl)
  have e1 : idx_main_v57 (idx_main_v58 (ridx_main_v59 (lidx_main_v63 (ix2 r d) f) k)) = ix3 (7 : Fin 8) f k := funext fun a => Fin.ext (by
    have hk := k.isLt
    have hf := f.isLt
    match a with
    | ⟨0, _⟩ => rfl
    | ⟨1, _⟩ => show (f.val * 1024 + k.val) / 1024 % 4096 = f.val; omega
    | ⟨2, _⟩ => show (f.val * 1024 + k.val) % 1024 = k.val; omega)
  rw [e0, e1]

end Cert.ReferenceIdeal.RefValue

end
-- ==== Proof.RefValue.lean ====
/-
  The reference's result is the specification.

  The reference joins the eight experts' results along the rows, in the experts' order. Row R of the joined array is row
  R - off of the slice whose row range [off, off + n) holds R (`join_row`), and that slice's entry is the specification's
  entry (R, d) (the eight slice lemmas). The row ranges start at 0, 3072, 4096, 6656, 8192, 10240, 12288, 14848.
-/
import proofs.«177393_j69965017252291_1_alg».proof.Proof.RefPiece0
import proofs.«177393_j69965017252291_1_alg».proof.Proof.RefPiece1
import proofs.«177393_j69965017252291_1_alg».proof.Proof.RefPiece2
import proofs.«177393_j69965017252291_1_alg».proof.Proof.RefPiece3
import proofs.«177393_j69965017252291_1_alg».proof.Proof.RefPiece4
import proofs.«177393_j69965017252291_1_alg».proof.Proof.RefPiece5
import proofs.«177393_j69965017252291_1_alg».proof.Proof.RefPiece6
import proofs.«177393_j69965017252291_1_alg».proof.Proof.RefPiece7
import Idealize.ShloMosaic.Lib.Pipeline.Value

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- The eight slices' shapes, in the order they are joined. -/
abbrev sliceShapes : List Shape :=
  [S3072x1024, S1024x1024, S2560x1024, S1536x1024, S2048x1024, S2048x1024, S2560x1024, S1536x1024]

/-- Row R of a join of pieces along the rows, when R lies in piece k's rows [off, off + n) (off the rows of the pieces
    before it, counted on the pieces' shapes `ss`), is row R - off of piece k; the column is kept. -/
theorem join_row (xs : List ((s : Shape) × (s.Idx → EReal))) (h : Shape.Concatenates (xs.map (·.1)) S16384x1024 (0 : Fin 2))
    (ss : List Shape) (hss : xs.map (·.1) = ss)
    (R : Fin 16384) (d : Fin 1024) (k : Nat) (n : Nat) (y : (⟨2, ![n, 1024]⟩ : Shape).Idx → EReal)
    (hxk : xs[k]? = some ⟨⟨2, ![n, 1024]⟩, y⟩) (off : Nat)
    (hpre : ((ss.take k).map fun s => if h : s.rank = S16384x1024.rank then s.size ((0 : Fin 2).cast h.symm) else 0).sum = off)
    (h0 : off ≤ R.val) (h1 : R.val < off + n) :
    concatenate S16384x1024 (0 : Fin 2) xs h (ix2 R d) = y (ix2 (⟨R.val - off, by omega⟩ : Fin n) d) := by
  obtain ⟨hk, e⟩ := List.getElem?_eq_some_iff.mp hxk
  exact concatenate_apply_piece (0 : Fin 2) xs h (ix2 R d) k hk ⟨2, ![n, 1024]⟩ y e rfl off
    (by rw [List.map_take, hss]; exact hpre) (ix2 (⟨R.val - off, by omega⟩ : Fin n) d)
    (fun b hb => by match b with | ⟨0, _⟩ => exact absurd rfl hb | ⟨1, _⟩ => rfl)
    (by show off + (R.val - off) = R.val; omega)

/-- THE REFERENCE'S LAST STAGE, the join of the eight slices' results, is the specification of the three arguments. -/
theorem ref_eq (x0 : (⟨S16384x1024, .f32⟩ : BufTy).Contents (Elt Ideal)) (x1 : (⟨S8x4096x1024, .f32⟩ : BufTy).Contents (Elt Ideal))
    (x2 : (⟨S8x1024x4096, .f32⟩ : BufTy).Contents (Elt Ideal)) :
    val_main_v64 (F := Ideal) x0 x1 x2 = Cert.Moe.G x0 x1 x2 := by
  funext j
  obtain ⟨R, d, rfl⟩ : ∃ (R : Fin 16384) (d : Fin 1024), j = ix2 R d := ⟨j 0, j 1, eq_ix2 j⟩
  rw [Cert.Moe.G_ix2]
  unfold val_main_v64
  have hR := R.isLt
  by_cases h0 : R.val < 3072
  · exact (join_row _ _ sliceShapes rfl R d 0 3072 (val_main_v7 (F := Ideal) x0 x1 x2) rfl 0 (by decide) (by omega) (by omega)).trans
      (piece0 x0 x1 x2 _ d R (by show R.val = 0 + (R.val - 0); omega))
  by_cases h1 : R.val < 4096
  · exact (join_row _ _ sliceShapes rfl R d 1 1024 (val_main_v15 (F := Ideal) x0 x1 x2) rfl 3072 (by decide) (by omega) (by omega)).trans
      (piece1 x0 x1 x2 _ d R (by show R.val = 3072 + (R.val - 3072); omega))
  by_cases h2 : R.val < 6656
  · exact (join_row _ _ sliceShapes rfl R d 2 2560 (val_main_v23 (F := Ideal) x0 x1 x2) rfl 4096 (by decide) (by omega) (by omega)).trans
      (piece2 x0 x1 x2 _ d R (by show R.val = 4096 + (R.val - 4096); omega))
  by_cases h3 : R.val < 8192
  · exact (join_row _ _ sliceShapes rfl R d 3 1536 (val_main_v31 (F := Ideal) x0 x1 x2) rfl 6656 (by decide) (by omega) (by omega)).trans
      (piece3 x0 x1 x2 _ d R (by show R.val = 6656 + (R.val - 6656); omega))
  by_cases h4 : R.val < 10240
  · exact (join_row _ _ sliceShapes rfl R d 4 2048 (val_main_v39 (F := Ideal) x0 x1 x2) rfl 8192 (by decide) (by omega) (by omega)).trans
      (piece4 x0 x1 x2 _ d R (by show R.val = 8192 + (R.val - 8192); omega))
  by_cases h5 : R.val < 12288
  · exact (join_row _ _ sliceShapes rfl R d 5 2048 (val_main_v47 (F := Ideal) x0 x1 x2) rfl 10240 (by decide) (by omega) (by omega)).trans
      (piece5 x0 x1 x2 _ d R (by show R.val = 10240 + (R.val - 10240); omega))
  by_cases h6 : R.val < 14848
  · exact (join_row _ _ sliceShapes rfl R d 6 2560 (val_main_v55 (F := Ideal) x0 x1 x2) rfl 12288 (by decide) (by omega) (by omega)).trans
      (piece6 x0 x1 x2 _ d R (by show R.val = 12288 + (R.val - 12288); omega))
  · exact (join_row _ _ sliceShapes rfl R d 7 1536 (val_main_v63 (F := Ideal) x0 x1 x2) rfl 14848 (by decide) (by omega) (by omega)).trans
      (piece7 x0 x1 x2 _ d R (by show R.val = 14848 + (R.val - 14848); omega))

end Cert.ReferenceIdeal.RefValue

end
-- ==== Proof.lean ====
/-
  Grouped expert feed-forward in row tiles against its per-expert reference: the claims.

  Both programs compute, for row r with expert e and column d,
      sum over f of  max (sum over k of x[r, k] * wi[e, f, k], 0) * wo[e, d, f]
  (`Cert.Moe.G`, Proof/Spec.lean). The kernel does it tile by tile: 128 tiles of 128 rows, each with one expert, the
  tile's row block and its expert's weight blocks chosen by two tables the program writes as constants; the tables'
  contents put every block inside its array, which is all the kernel's frames need (Proof/KernelIdealTables.lean and its
  word-level twin). At the extended reals each tile's block is the specification's (Proof/KernelIdealValue.lean), and the
  blocks cover the result. The reference does it expert by expert on slices and joins the results, which is the same
  array (Proof/RefValue.lean). No law beyond reading both sides index by index is needed, so finiteness of the inputs is
  never used. The idealization rewrote nothing, so there is nothing to preserve.
-/
import proofs.«177393_j69965017252291_1_alg».proof.Defs
import proofs.«177393_j69965017252291_1_alg».proof.Proof.Gen.Kernel
import proofs.«177393_j69965017252291_1_alg».proof.Proof.Gen.Kernel.Skeleton
import proofs.«177393_j69965017252291_1_alg».proof.Proof.Gen.Kernel.Launch
import proofs.«177393_j69965017252291_1_alg».proof.Proof.Gen.Kernel.Points
import proofs.«177393_j69965017252291_1_alg».proof.Proof.Gen.Kernel.Frame
import proofs.«177393_j69965017252291_1_alg».proof.Proof.Gen.KernelIdeal
import proofs.«177393_j69965017252291_1_alg».proof.Proof.Gen.KernelIdeal.Skeleton
import proofs.«177393_j69965017252291_1_alg».proof.Proof.Gen.KernelIdeal.Launch
import proofs.«177393_j69965017252291_1_alg».proof.Proof.Gen.KernelIdeal.Points
import proofs.«177393_j69965017252291_1_alg».proof.Proof.Gen.KernelIdeal.Frame
import proofs.«177393_j69965017252291_1_alg».proof.Proof.Gen.ReferenceIdeal
import proofs.«177393_j69965017252291_1_alg».proof.Proof.Gen.Pre_finite_inputs
import proofs.«177393_j69965017252291_1_alg».proof.Proof.Gen.ReferenceIdeal.Run
import proofs.«177393_j69965017252291_1_alg».proof.Proof.Gen.ReferenceIdeal.Read
import proofs.«177393_j69965017252291_1_alg».proof.Proof.KernelTables
import proofs.«177393_j69965017252291_1_alg».proof.Proof.KernelIdealTables
import proofs.«177393_j69965017252291_1_alg».proof.Proof.KernelIdealValue
import proofs.«177393_j69965017252291_1_alg».proof.Proof.RefValue
import Idealize.ShloMosaic.Adequacy
import Idealize.ShloMosaic.Init

noncomputable section

namespace Cert.Proof

open Idealize.ShloMosaic Idealize.SL.Sem

/-- The word-level kernel runs and keeps its arguments: its generated frame, at the tables' contents. -/
theorem frame_k : Cert.frame_Kernel := fun m ρ _ => Cert.Kernel.Gen.frame m ρ (Cert.Kernel.Tables.ok m)

/-- So does the idealized kernel. -/
theorem frame_ki : Cert.frame_KernelIdeal := fun m ρ _ => Cert.KernelIdeal.Gen.frame m ρ (Cert.KernelIdeal.Tables.ok m)

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals, from memories agreeing on the arguments, both programs end with the result array at the
    specification of the arguments. -/
theorem algebraic : Cert.algebraic_KernelIdeal_ReferenceIdeal := by
  intro m ρ m' ρ' _ hagree
  refine ⟨fun c => Cert.Moe.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Value.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v64_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
